-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S100000x8 : Shape := ⟨2, ![100000, 8]⟩
abbrev S3200000 : Shape := ⟨1, ![3200000]⟩
abbrev S2x32768 : Shape := ⟨2, ![2, 32768]⟩
abbrev S128x768 : Shape := ⟨2, ![128, 768]⟩
abbrev S128 : Shape := ⟨1, ![128]⟩
abbrev S16x144 : Shape := ⟨2, ![16, 144]⟩
abbrev S16 : Shape := ⟨1, ![16]⟩
abbrev S3x16 : Shape := ⟨2, ![3, 16]⟩
abbrev S3 : Shape := ⟨1, ![3]⟩
abbrev S8x8 : Shape := ⟨2, ![8, 8]⟩
abbrev S8 : Shape := ⟨1, ![8]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S16x144 : S_.BroadcastsInDim S16x144 (![] : Fin 0 → Fin S16x144.rank)
  reducesTo_S16x144_S_d0_1 : S16x144.ReducesTo [0, 1] S_
  bcast_S_S16 : S_.BroadcastsInDim S16 (![] : Fin 0 → Fin S16.rank)
  reducesTo_S16_S_d0 : S16.ReducesTo [0] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg10 : FVec F S3 .f32) (main_arg11 : FVec F S8x8 .f32) (main_arg12 : FVec F S8x8 .f32) (main_arg13 : FVec F S8 .f32) (main_v33 : IVec S_ 1) : IVec S_ 1 :=
  let main_v34 : FVec F S3 .f32 := Host.absf main_arg10
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S8x8 .f32 := Host.absf main_arg11
  let main_cst_14 : FVec F S_ .f32 := constant S_ .f32 0x7F800000#32
  let main_v40 : FVec F S8x8 .f32 := broadcastInDim S8x8 ![] bcast_S_S8x8 main_cst_14
  let main_v41 : IVec S8x8 1 := cmpf .olt main_v39 main_v40
  let main_c_15 : IVec S_ 1 := constantI S_ 1 1#1
  let main_v42 : IVec S_ 1 := (fun x v => Host.reduce IntOp.andi x v reducesTo_S8x8_S_d0_1 h_S_) main_v41 main_c_15
  let main_v43 : IVec S_ 1 := andi main_v38 main_v42
  let main_v44 : FVec F S8x8 .f32 := Host.absf main_arg12
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg13
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg7 : FVec F S16x144 .f32) (main_arg8 : FVec F S16 .f32) (main_arg9 : FVec F S3x16 .f32) (main_arg10 : FVec F S3 .f32) (main_arg11 : FVec F S8x8 .f32) (main_arg12 : FVec F S8x8 .f32) (main_arg13 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x144 .f32 := Host.absf main_arg7
  let main_cst_6 : FVec F S_ .f32 := constant S_ .f32 0x7F800000#32
  let main_v20 : FVec F S16x144 .f32 := broadcastInDim S16x144 ![] bcast_S_S16x144 main_cst_6
  let main_v21 : IVec S16x144 1 := cmpf .olt main_v19 main_v20
  let main_c_7 : IVec S_ 1 := constantI S_ 1 1#1
  let main_v22 : IVec S_ 1 := (fun x v => Host.reduce IntOp.andi x v reducesTo_S16x144_S_d0_1 h_S_) main_v21 main_c_7
  let main_v23 : IVec S_ 1 := andi main_v18 main_v22
  let main_v24 : FVec F S16 .f32 := Host.absf main_arg8
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S3x16 .f32 := Host.absf main_arg9
  let main_cst_10 : FVec F S_ .f32 := constant S_ .f32 0x7F800000#32
  let main_v30 : FVec F S3x16 .f32 := broadcastInDim S3x16 ![] bcast_S_S3x16 main_cst_10
  let main_v31 : IVec S3x16 1 := cmpf .olt main_v29 main_v30
  let main_c_11 : IVec S_ 1 := constantI S_ 1 1#1
  let main_v32 : IVec S_ 1 := (fun x v => Host.reduce IntOp.andi x v reducesTo_S3x16_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S32768x768 .f32) (main_arg1 : FVec F S100000x8 .f32) (main_arg2 : IVec S3200000 32) (main_arg3 : IVec S3200000 32) (main_arg4 : IVec S2x32768 32) (main_arg5 : FVec F S128x768 .f32) (main_arg6 : FVec F S128 .f32) (main_arg7 : FVec F S16x144 .f32) (main_arg8 : FVec F S16 .f32) (main_arg9 : FVec F S3x16 .f32) (main_arg10 : FVec F S3 .f32) (main_arg11 : FVec F S8x8 .f32) (main_arg12 : FVec F S8x8 .f32) (main_arg13 : FVec F S8 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S128x768 .f32 := Host.absf main_arg5
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S32768x768 : Shape := ⟨2, ![32768, 768]⟩
abbrev S100000x8 : Shape := ⟨2, ![100000, 8]⟩
abbrev S3200000 : Shape := ⟨1, ![3200000]⟩
abbrev S2x32768 : Shape := ⟨2, ![2, 32768]⟩
abbrev S128x768 : Shape := ⟨2, ![128, 768]⟩
abbrev S128 : Shape := ⟨1, ![128]⟩
abbrev S16x144 : Shape := ⟨2, ![16, 144]⟩
abbrev S16 : Shape := ⟨1, ![16]⟩
abbrev S3x16 : Shape := ⟨2, ![3, 16]⟩
abbrev S3 : Shape := ⟨1, ![3]⟩
abbrev S8x8 : Shape := ⟨2, ![8, 8]⟩
abbrev S8 : Shape := ⟨1, ![8]⟩
abbrev S_ : Shape := ⟨0, ![]⟩
abbrev S3200000x1 : Shape := ⟨2, ![3200000, 1]⟩
abbrev S3200000x8 : Shape := ⟨2, ![3200000, 8]⟩
abbrev S100000 : Shape := ⟨1, ![100000]⟩
abbrev S100000x1 : Shape := ⟨2, ![100000, 1]⟩
abbrev S1x8 : Shape := ⟨2, ![1, 8]⟩
abbrev S10000x8 : Shape := ⟨2, ![10000, 8]⟩
abbrev S1x32768 : Shape := ⟨2, ![1, 32768]⟩
abbrev S32768 : Shape := ⟨1, ![32768]⟩
abbrev S32768x1 : Shape := ⟨2, ![32768, 1]⟩
abbrev S32768x8 : Shape := ⟨2, ![32768, 8]⟩
abbrev S1x128 : Shape := ⟨2, ![1, 128]⟩
abbrev S1x16 : Shape := ⟨2, ![1, 16]⟩
abbrev S1x3 : Shape := ⟨2, ![1, 3]⟩
abbrev S32768x3 : Shape := ⟨2, ![32768, 3]⟩
abbrev S2048x768 : Shape := ⟨2, ![2048, 768]⟩
abbrev S2048x8 : Shape := ⟨2, ![2048, 8]⟩
abbrev S2048x3 : Shape := ⟨2, ![2048, 3]⟩
abbrev S768x128 : Shape := ⟨2, ![768, 128]⟩
abbrev S2048x128 : Shape := ⟨2, ![2048, 128]⟩
abbrev S2048x144 : Shape := ⟨2, ![2048, 144]⟩
abbrev S144x16 : Shape := ⟨2, ![144, 16]⟩
abbrev S2048x16 : Shape := ⟨2, ![2048, 16]⟩
abbrev S16x3 : Shape := ⟨2, ![16, 3]⟩

abbrev nBuf : Space → Nat
  | .hbm => 67
  | .vmem => 23
  | .smem => 0
  | _ => 0

abbrev bufTy : (tb : Table) → Fin (tcTables nBuf tb) → BufTy
  | .hbm, ⟨0, _⟩ => ⟨S32768x768, .f32⟩
  | .hbm, ⟨1, _⟩ => ⟨S100000x8, .f32⟩
  | .hbm, ⟨2, _⟩ => ⟨S3200000, .i32⟩
  | .hbm, ⟨3, _⟩ => ⟨S3200000, .i32⟩
  | .hbm, ⟨4, _⟩ => ⟨S2x32768, .i32⟩
  | .hbm, ⟨5, _⟩ => ⟨S128x768, .f32⟩
  | .hbm, ⟨6, _⟩ => ⟨S128, .f32⟩
  | .hbm, ⟨7, _⟩ => ⟨S16x144, .f32⟩
  | .hbm, ⟨8, _⟩ => ⟨S16, .f32⟩
  | .hbm, ⟨9, _⟩ => ⟨S3x16, .f32⟩
  | .hbm, ⟨10, _⟩ => ⟨S3, .f32⟩
  | .hbm, ⟨11, _⟩ => ⟨S8x8, .f32⟩
  | .hbm, ⟨12, _⟩ => ⟨S8x8, .f32⟩
  | .hbm, ⟨13, _⟩ => ⟨S8, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x8, .f32⟩
  | .hbm, ⟨23, _⟩ => ⟨S_, .f32⟩
  | .hbm, ⟨24, _⟩ => ⟨S100000x8, .f32⟩
  | .hbm, ⟨25, _⟩ => ⟨S3200000x1, .i32⟩
  | .hbm, ⟨26, _⟩ => ⟨S100000x8, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x8, .f32⟩
  | .hbm, ⟨38, _⟩ => ⟨S100000x8, .f32⟩
  | .hbm, ⟨39, _⟩ => ⟨S1x8, .f32⟩
  | .hbm, ⟨40, _⟩ => ⟨S100000x8, .f32⟩
  | .hbm, ⟨41, _⟩ => ⟨S1x32768, .i32⟩
  | .hbm, ⟨42, _⟩ => ⟨S32768, .i32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x8, .f32⟩
  | .hbm, ⟨52, _⟩ => ⟨S1x32768, .i32⟩
  | .hbm, ⟨53, _⟩ => ⟨S32768, .i32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768x8, .f32⟩
  | .hbm, ⟨63, _⟩ => ⟨S1x128, .f32⟩
  | .hbm, ⟨64, _⟩ => ⟨S1x16, .f32⟩
  | .hbm, ⟨65, _⟩ => ⟨S1x3, .f32⟩
  | .hbm, ⟨66, _⟩ => ⟨S32768x3, .f32⟩
  | .local _ .vmem, ⟨0, _⟩ => ⟨S10000x8, .f32⟩
  | .local _ .vmem, ⟨1, _⟩ => ⟨S10000x8, .f32⟩
  | .local _ .vmem, ⟨2, _⟩ => ⟨S10000x8, .f32⟩
  | .local _ .vmem, ⟨3, _⟩ => ⟨S10000x8, .f32⟩
  | .local _ .vmem, ⟨4, _⟩ => ⟨S8x8, .f32⟩
  | .local _ .vmem, ⟨5, _⟩ => ⟨S8x8, .f32⟩
  | .local _ .vmem, ⟨6, _⟩ => ⟨S1x8, .f32⟩
  | .local _ .vmem, ⟨7, _⟩ => ⟨S10000x8, .f32⟩
  | .local _ .vmem, ⟨8, _⟩ => ⟨S10000x8, .f32⟩
  | .local _ .vmem, ⟨9, _⟩ => ⟨S2048x768, .f32⟩
  | .local _ .vmem, ⟨10, _⟩ => ⟨S2048x768, .f32⟩
  | .local _ .vmem, ⟨11, _⟩ => ⟨S2048x8, .f32⟩
  | .local _ .vmem, ⟨12, _⟩ => ⟨S2048x8, .f32⟩
  | .local _ .vmem, ⟨13, _⟩ => ⟨S2048x8, .f32⟩
  | .local _ .vmem, ⟨14, _⟩ => ⟨S2048x8, .f32⟩
  | .local _ .vmem, ⟨15, _⟩ => ⟨S128x768, .f32⟩
  | .local _ .vmem, ⟨16, _⟩ => ⟨S1x128, .f32⟩
  | .local _ .vmem, ⟨17, _⟩ => ⟨S16x144, .f32⟩
  | .local _ .vmem, ⟨18, _⟩ => ⟨S1x16, .f32⟩
  | .local _ .vmem, ⟨19, _⟩ => ⟨S3x16, .f32⟩
  | .local _ .vmem, ⟨20, _⟩ => ⟨S1x3, .f32⟩
  | .local _ .vmem, ⟨21, _⟩ => ⟨S2048x3, .f32⟩
  | .local _ .vmem, ⟨22, _⟩ => ⟨S2048x3, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  shapeCasts_S8_S1x8 : S8.ShapeCasts S1x8
  inb_S10000x8_S10000x8_0_0 : ∀ a, (![0, 0] : Fin 2 → Nat) a + S10000x8.size a ≤ S10000x8.size a
  h_S10000x8 : 0 < S10000x8.numel
  bitsLt_bf16_f32 : FTy.bits .bf16 < FTy.bits .f32
  shapeCasts_S10000x8_S10000x8 : S10000x8.ShapeCasts S10000x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  shapeCasts_S128_S1x128 : S128.ShapeCasts S1x128
  shapeCasts_S16_S1x16 : S16.ShapeCasts S1x16
  shapeCasts_S3_S1x3 : S3.ShapeCasts S1x3
  inb_S2048x768_S2048x768_0_0 : ∀ a, (![0, 0] : Fin 2 → Nat) a + S2048x768.size a ≤ S2048x768.size a
  h_S2048x768 : 0 < S2048x768.numel
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  concatenates_S2048x128_S2048x8_S2048x8_S2048x144_d1 : Shape.Concatenates [S2048x128, S2048x8, S2048x8] S2048x144 1
  inb_S16x144_S16x144_0_0 : ∀ a, (![0, 0] : Fin 2 → Nat) a + S16x144.size a ≤ S16x144.size a
  h_S16x144 : 0 < S16x144.numel
  transposes_S16x144_p1_0_S144x16 : S16x144.Transposes [1, 0] S144x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S3x16_S3x16_0_0 : ∀ a, (![0, 0] : Fin 2 → Nat) a + S3x16.size a ≤ S3x16.size a
  h_S3x16 : 0 < S3x16.numel
  transposes_S3x16_p1_0_S16x3 : S3x16.Transposes [1, 0] S16x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S10000x8_S8x8_S10000x8_1_0_0_1_n_n_wf : DotDims.WF S10000x8 S8x8 S10000x8 [1] [0] [0] [1] [] []
  gather_S100000x8_S32768x1_S32768x8_1_0_n_n_0_1_18_wf : GatherDims.WF S100000x8 S32768x1 S32768x8 [1] [0] [] [0] [] 1 ![1, 8]
  dot_S2048x768_S768x128_S2048x128_1_0_0_1_n_n_wf : DotDims.WF S2048x768 S768x128 S2048x128 [1] [0] [0] [1] [] []
  dot_S2048x144_S144x16_S2048x16_1_0_0_1_n_n_wf : DotDims.WF S2048x144 S144x16 S2048x16 [1] [0] [0] [1] [] []
  dot_S2048x16_S16x3_S2048x3_1_0_0_1_n_n_wf : DotDims.WF S2048x16 S16x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S100000x8.size a
  hwx0_1 : ∀ i : grid0.Coords, EltTy.bits .f32 = 32 ∨ (Rect.block (s := S100000x8) S10000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S8x8.size a
  hwx0_2 : ∀ i : grid0.Coords, EltTy.bits .f32 = 32 ∨ (Rect.block (s := S8x8) S8x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x8.size a ≤ S100000x8.size a
  hwx0_5 : ∀ i : grid0.Coords, EltTy.bits .f32 = 32 ∨ (Rect.block (s := S100000x8) S10000x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S32768x768.size a
  hwx1_0 : ∀ i : grid1.Coords, EltTy.bits .f32 = 32 ∨ (Rect.block (s := S32768x768) S2048x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S32768x8.size a
  hwx1_1 : ∀ i : grid1.Coords, EltTy.bits .f32 = 32 ∨ (Rect.block (s := S32768x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x8.size a ≤ S32768x8.size a
  hwx1_2 : ∀ i : grid1.Coords, EltTy.bits .f32 = 32 ∨ (Rect.block (s := S32768x8) S2048x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S128x768.size a
  hwx1_3 : ∀ i : grid1.Coords, EltTy.bits .f32 = 32 ∨ (Rect.block (s := S128x768) S128x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x144.size a ≤ S16x144.size a
  hwx1_5 : ∀ i : grid1.Coords, EltTy.bits .f32 = 32 ∨ (Rect.block (s := S16x144) S16x144.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x16.size a ≤ S3x16.size a
  hwx1_7 : ∀ i : grid1.Coords, EltTy.bits .f32 = 32 ∨ (Rect.block (s := S3x16) S3x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x3.size a ≤ S1x3.size a
  hwx1_8 : ∀ i : grid1.Coords, EltTy.bits .f32 = 32 ∨ (Rect.block (s := S1x3) S1x3.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x3.size a ≤ S32768x3.size a
  hwx1_9 : ∀ i : grid1.Coords, EltTy.bits .f32 = 32 ∨ (Rect.block (s := S32768x3) S2048x3.size (cc1_transform_9 i) (hinb1_9 i)).WholeWords (EltTy.packing .f32)

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x8_S8x8_S10000x8_1_0_0_1_n_n : DotDims S10000x8 S8x8 S10000x8 where
  lhsContracting := [1]
  rhsContracting := [0]
  lhsNonContracting := [0]
  rhsNonContracting := [1]
  lhsBatch := []
  rhsBatch := []
  wf := dot_S10000x8_S8x8_S10000x8_1_0_0_1_n_n_wf
def gather_S100000x8_S32768x1_S32768x8_1_0_n_n_0_1_18 : GatherDims S100000x8 S32768x1 S32768x8 where
  offsetDims := [1]
  collapsedSliceDims := [0]
  operandBatchingDims := []
  startIndicesBatchingDims := []
  startIndexMap := [0]
  indexVectorDim := 1
  sliceSizes := ![1, 8]
  wf := gather_S100000x8_S32768x1_S32768x8_1_0_n_n_0_1_18_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S2048x144_S144x16_S2048x16_1_0_0_1_n_n : DotDims S2048x144 S144x16 S2048x16 where
  lhsContracting := [1]
  rhsContracting := [0]
  lhsNonContracting := [0]
  rhsNonContracting := [1]
  lhsBatch := []
  rhsBatch := []
  wf := dot_S2048x144_S144x16_S2048x16_1_0_0_1_n_n_wf
def dot_S2048x16_S16x3_S2048x3_1_0_0_1_n_n : DotDims S2048x16 S16x3 S2048x3 where
  lhsContracting := [1]
  rhsContracting := [0]
  lhsNonContracting := [0]
  rhsNonContracting := [1]
  lhsBatch := []
  rhsBatch := []
  wf := dot_S2048x16_S16x3_S2048x3_1_0_0_1_n_n_wf

abbrev win0_0 : Pipeline.Window sig grid0 :=
  Pipeline.Window.ofSpec (Memref.whole main_arg1) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2048x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S16x144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S3x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S2048x3.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32768x768 : Shape := ⟨2, ![32768, 768]⟩
abbrev S100000x8 : Shape := ⟨2, ![100000, 8]⟩
abbrev S3200000 : Shape := ⟨1, ![3200000]⟩
abbrev S2x32768 : Shape := ⟨2, ![2, 32768]⟩
abbrev S128x768 : Shape := ⟨2, ![128, 768]⟩
abbrev S128 : Shape := ⟨1, ![128]⟩
abbrev S16x144 : Shape := ⟨2, ![16, 144]⟩
abbrev S16 : Shape := ⟨1, ![16]⟩
abbrev S3x16 : Shape := ⟨2, ![3, 16]⟩
abbrev S3 : Shape := ⟨1, ![3]⟩
abbrev S8x8 : Shape := ⟨2, ![8, 8]⟩
abbrev S8 : Shape := ⟨1, ![8]⟩
abbrev S_ : Shape := ⟨0, ![]⟩
abbrev S3200000x1 : Shape := ⟨2, ![3200000, 1]⟩
abbrev S3200000x8 : Shape := ⟨2, ![3200000, 8]⟩
abbrev S100000 : Shape := ⟨1, ![100000]⟩
abbrev S100000x1 : Shape := ⟨2, ![100000, 1]⟩
abbrev S1x8 : Shape := ⟨2, ![1, 8]⟩
abbrev S768x128 : Shape := ⟨2, ![768, 128]⟩
abbrev S32768x128 : Shape := ⟨2, ![32768, 128]⟩
abbrev S1x128 : Shape := ⟨2, ![1, 128]⟩
abbrev S1x32768 : Shape := ⟨2, ![1, 32768]⟩
abbrev S32768 : Shape := ⟨1, ![32768]⟩
abbrev S32768x1 : Shape := ⟨2, ![32768, 1]⟩
abbrev S32768x8 : Shape := ⟨2, ![32768, 8]⟩
abbrev S32768x144 : Shape := ⟨2, ![32768, 144]⟩
abbrev S144x16 : Shape := ⟨2, ![144, 16]⟩
abbrev S32768x16 : Shape := ⟨2, ![32768, 16]⟩
abbrev S1x16 : Shape := ⟨2, ![1, 16]⟩
abbrev S16x3 : Shape := ⟨2, ![16, 3]⟩
abbrev S32768x3 : Shape := ⟨2, ![32768, 3]⟩
abbrev S1x3 : Shape := ⟨2, ![1, 3]⟩

abbrev nBuf : Space → Nat
  | .hbm => 91
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S100000x8, .f32⟩
  | .hbm, ⟨2, _⟩ => ⟨S3200000, .i32⟩
  | .hbm, ⟨3, _⟩ => ⟨S3200000, .i32⟩
  | .hbm, ⟨4, _⟩ => ⟨S2x32768, .i32⟩
  | .hbm, ⟨5, _⟩ => ⟨S128x768, .f32⟩
  | .hbm, ⟨6, _⟩ => ⟨S128, .f32⟩
  | .hbm, ⟨7, _⟩ => ⟨S16x144, .f32⟩
  | .hbm, ⟨8, _⟩ => ⟨S16, .f32⟩
  | .hbm, ⟨9, _⟩ => ⟨S3x16, .f32⟩
  | .hbm, ⟨10, _⟩ => ⟨S3, .f32⟩
  | .hbm, ⟨11, _⟩ => ⟨S8x8, .f32⟩
  | .hbm, ⟨12, _⟩ => ⟨S8x8, .f32⟩
  | .hbm, ⟨13, _⟩ => ⟨S8, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x8, .f32⟩
  | .hbm, ⟨23, _⟩ => ⟨S_, .f32⟩
  | .hbm, ⟨24, _⟩ => ⟨S100000x8, .f32⟩
  | .hbm, ⟨25, _⟩ => ⟨S3200000x1, .i32⟩
  | .hbm, ⟨26, _⟩ => ⟨S100000x8, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x8, .f32⟩
  | .hbm, ⟨38, _⟩ => ⟨S100000x8, .f32⟩
  | .hbm, ⟨39, _⟩ => ⟨S8x8, .f32⟩
  | .hbm, ⟨40, _⟩ => ⟨S100000x8, .f32⟩
  | .hbm, ⟨41, _⟩ => ⟨S8x8, .f32⟩
  | .hbm, ⟨42, _⟩ => ⟨S100000x8, .f32⟩
  | .hbm, ⟨43, _⟩ => ⟨S100000x8, .f32⟩
  | .hbm, ⟨44, _⟩ => ⟨S1x8, .f32⟩
  | .hbm, ⟨45, _⟩ => ⟨S100000x8, .f32⟩
  | .hbm, ⟨46, _⟩ => ⟨S100000x8, .f32⟩
  | .hbm, ⟨47, _⟩ => ⟨S768x128, .f32⟩
  | .hbm, ⟨48, _⟩ => ⟨S32768x128, .f32⟩
  | .hbm, ⟨49, _⟩ => ⟨S1x128, .f32⟩
  | .hbm, ⟨50, _⟩ => ⟨S32768x128, .f32⟩
  | .hbm, ⟨51, _⟩ => ⟨S32768x128, .f32⟩
  | .hbm, ⟨52, _⟩ => ⟨S_, .f32⟩
  | .hbm, ⟨53, _⟩ => ⟨S32768x128, .f32⟩
  | .hbm, ⟨54, _⟩ => ⟨S32768x128, .f32⟩
  | .hbm, ⟨55, _⟩ => ⟨S1x32768, .i32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S32768x8, .f32⟩
  | .hbm, ⟨66, _⟩ => ⟨S1x32768, .i32⟩
  | .hbm, ⟨67, _⟩ => ⟨S32768, .i32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S_, .i32⟩
  | .hbm, ⟨72, _⟩ => ⟨S32768, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S32768x8, .f32⟩
  | .hbm, ⟨77, _⟩ => ⟨S32768x144, .f32⟩
  | .hbm, ⟨78, _⟩ => ⟨S144x16, .f32⟩
  | .hbm, ⟨79, _⟩ => ⟨S32768x16, .f32⟩
  | .hbm, ⟨80, _⟩ => ⟨S1x16, .f32⟩
  | .hbm, ⟨81, _⟩ => ⟨S32768x16, .f32⟩
  | .hbm, ⟨82, _⟩ => ⟨S32768x16, .f32⟩
  | .hbm, ⟨83, _⟩ => ⟨S_, .f32⟩
  | .hbm, ⟨84, _⟩ => ⟨S32768x16, .f32⟩
  | .hbm, ⟨85, _⟩ => ⟨S32768x16, .f32⟩
  | .hbm, ⟨86, _⟩ => ⟨S16x3, .f32⟩
  | .hbm, ⟨87, _⟩ => ⟨S32768x3, .f32⟩
  | .hbm, ⟨88, _⟩ => ⟨S1x3, .f32⟩
  | .hbm, ⟨89, _⟩ => ⟨S32768x3, .f32⟩
  | .hbm, ⟨90, _⟩ => ⟨S32768x3, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S8x8_S8x8_1_0 : S8x8.Transposes [1, 0] S8x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S128x768_S768x128_1_0 : S128x768.Transposes [1, 0] S768x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  concatenates_S32768x128_S32768x8_S32768x8_S32768x144_d1 : Shape.Concatenates [S32768x128, S32768x8, S32768x8] S32768x144 1
  transposes_S16x144_S144x16_1_0 : S16x144.Transposes [1, 0] S144x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  transposes_S3x16_S16x3_1_0 : S3x16.Transposes [1, 0] S16x3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x8_S8x8_S100000x8_1_0_0_1_n_n_wf : DotDims.WF S100000x8 S8x8 S100000x8 [1] [0] [0] [1] [] []
  dot_S32768x768_S768x128_S32768x128_1_0_0_1_n_n_wf : DotDims.WF S32768x768 S768x128 S32768x128 [1] [0] [0] [1] [] []
  gather_S100000x8_S32768x1_S32768x8_1_0_n_n_0_1_18_wf : GatherDims.WF S100000x8 S32768x1 S32768x8 [1] [0] [] [0] [] 1 ![1, 8]
  dot_S32768x144_S144x16_S32768x16_1_0_0_1_n_n_wf : DotDims.WF S32768x144 S144x16 S32768x16 [1] [0] [0] [1] [] []
  dot_S32768x16_S16x3_S32768x3_1_0_0_1_n_n_wf : DotDims.WF S32768x16 S16x3 S32768x3 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S32768x768_S768x128_S32768x128_1_0_0_1_n_n : DotDims S32768x768 S768x128 S32768x128 where
  lhsContracting := [1]
  rhsContracting := [0]
  lhsNonContracting := [0]
  rhsNonContracting := [1]
  lhsBatch := []
  rhsBatch := []
  wf := dot_S32768x768_S768x128_S32768x128_1_0_0_1_n_n_wf
def gather_S100000x8_S32768x1_S32768x8_1_0_n_n_0_1_18 : GatherDims S100000x8 S32768x1 S32768x8 where
  offsetDims := [1]
  collapsedSliceDims := [0]
  operandBatchingDims := []
  startIndicesBatchingDims := []
  startIndexMap := [0]
  indexVectorDim := 1
  sliceSizes := ![1, 8]
  wf := gather_S100000x8_S32768x1_S32768x8_1_0_n_n_0_1_18_wf
def dot_S32768x144_S144x16_S32768x16_1_0_0_1_n_n : DotDims S32768x144 S144x16 S32768x16 where
  lhsContracting := [1]
  rhsContracting := [0]
  lhsNonContracting := [0]
  rhsNonContracting := [1]
  lhsBatch := []
  rhsBatch := []
  wf := dot_S32768x144_S144x16_S32768x16_1_0_0_1_n_n_wf
def dot_S32768x16_S16x3_S32768x3_1_0_0_1_n_n : DotDims S32768x16 S16x3 S32768x3 where
  lhsContracting := [1]
  rhsContracting := [0]
  lhsNonContracting := [0]
  rhsNonContracting := [1]
  lhsBatch := []
  rhsBatch := []
  wf := dot_S32768x16_S16x3_S32768x3_1_0_0_1_n_n_wf

class Facts : Prop extends Facts₀ where

variable [Facts]
-- ==== Proof.Spec.lean ====
/-
  The mathematics both programs compute, row by row, on the extended reals.

  A node's relearned feature (a SAGE convolution with mean aggregation, after the aggregation): for a node's own
  feature row `x`, the mean `h` of its in-neighbours' rows, the two 8×8 weight matrices and the bias,
      relRow x h Ws Wn b q = (∑ₖ x k · Ws[q,k]) + (∑ₖ h k · Wn[q,k]) + b q.
  A batch row of the classifier: for its 768 text features `x` and the relearned rows `hd`, `tl` of its two nodes,
      hid1 j   = max ((∑ₖ x k · W1[j,k]) + b1 j) 0                       (128 units)
      cat      = hid1 ++ hd ++ tl                                        (144 = 128 + 8 + 8 entries)
      hid2 j   = max ((∑ₖ cat k · W2[j,k]) + b2 j) 0                     (16 units)
      outRow q = (∑ₖ hid2 k · W3[q,k]) + b3 q                            (3 outputs).
  Every weight matrix is stored [out, in] and meets its input by the transposed product, so the sums run over the
  matrices' second coordinate. The whole arrays `relearn` and `mlp` apply the row functions at every row. No law of
  the extended reals is needed beyond this: both programs compute these very sums, a row block at a time or all at once.
-/
import Idealize.ShloMosaic.PureOps.Ideal
import Idealize.ShloMosaic.Lib.ValueIdx

noncomputable section

open scoped BigOperators

namespace Cert.Spec

open Idealize.ShloMosaic Idealize.ShloMosaic.ValueIdx

/-- The float zero both programs clamp at, as the word they both print. -/
abbrev zeroW : EReal := Ideal.ofBits .f32 0x00000000#32

/-- One relearned feature of a node from its own row, its neighbourhood mean, the two weight matrices and the bias. -/
def relRow (x h : Fin 8 → EReal) (ws wn : FVec Ideal ⟨2, ![8, 8]⟩ .f32) (b : Fin 8 → EReal) (q : Fin 8) : EReal :=
  (∑ k : Fin 8, x k * ws (ix2 q k)) + (∑ k : Fin 8, h k * wn (ix2 q k)) + b q

/-- The relearned table: `relRow` at every node and feature. -/
def relearn (node hn : FVec Ideal ⟨2, ![100000, 8]⟩ .f32) (ws wn : FVec Ideal ⟨2, ![8, 8]⟩ .f32)
    (b : Fin 8 → EReal) : FVec Ideal ⟨2, ![100000, 8]⟩ .f32 := fun i =>
  relRow (fun k => node (ix2 (⟨(i 0).val, idx2_lt0 i⟩ : Fin 100000) k)) (fun k => hn (ix2 (⟨(i 0).val, idx2_lt0 i⟩ : Fin 100000) k))
    ws wn b ⟨(i 1).val, idx2_lt1 i⟩

theorem relearn_ix2 (node hn : FVec Ideal ⟨2, ![100000, 8]⟩ .f32) (ws wn : FVec Ideal ⟨2, ![8, 8]⟩ .f32)
    (b : Fin 8 → EReal) (p : Fin 100000) (q : Fin 8) :
    relearn node hn ws wn b (ix2 p q) = relRow (fun k => node (ix2 p k)) (fun k => hn (ix2 p k)) ws wn b q := rfl

/-- The first hidden layer of one batch row. -/
def hid1 (x : Fin 768 → EReal) (w1 : FVec Ideal ⟨2, ![128, 768]⟩ .f32) (b1 : Fin 128 → EReal) (j : Fin 128) : EReal :=
  max ((∑ k : Fin 768, x k * w1 (ix2 j k)) + b1 j) zeroW

/-- The row the second layer reads: the first hidden layer, then the head node's features, then the tail node's. -/
def cat (x : Fin 768 → EReal) (hd tl : Fin 8 → EReal) (w1 : FVec Ideal ⟨2, ![128, 768]⟩ .f32) (b1 : Fin 128 → EReal)
    (k : Fin 144) : EReal :=
  if h : k.val < 128 then hid1 x w1 b1 ⟨k.val, h⟩
  else if h2 : k.val < 136 then hd ⟨k.val - 128, by omega⟩
  else tl ⟨k.val - 136, by have := k.isLt; omega⟩

/-- The second hidden layer of one batch row. -/
def hid2 (x : Fin 768 → EReal) (hd tl : Fin 8 → EReal) (w1 : FVec Ideal ⟨2, ![128, 768]⟩ .f32) (b1 : Fin 128 → EReal)
    (w2 : FVec Ideal ⟨2, ![16, 144]⟩ .f32) (b2 : Fin 16 → EReal) (j : Fin 16) : EReal :=
  max ((∑ k : Fin 144, cat x hd tl w1 b1 k * w2 (ix2 j k)) + b2 j) zeroW

/-- One output of one batch row. -/
def outRow (x : Fin 768 → EReal) (hd tl : Fin 8 → EReal) (w1 : FVec Ideal ⟨2, ![128, 768]⟩ .f32) (b1 : Fin 128 → EReal)
    (w2 : FVec Ideal ⟨2, ![16, 144]⟩ .f32) (b2 : Fin 16 → EReal) (w3 : FVec Ideal ⟨2, ![3, 16]⟩ .f32) (b3 : Fin 3 → EReal)
    (q : Fin 3) : EReal :=
  (∑ k : Fin 16, hid2 x hd tl w1 b1 w2 b2 k * w3 (ix2 q k)) + b3 q

/-- The classifier on the whole batch: `outRow` at every batch row and output. -/
def mlp (bert : FVec Ideal ⟨2, ![32768, 768]⟩ .f32) (hd tl : FVec Ideal ⟨2, ![32768, 8]⟩ .f32)
    (w1 : FVec Ideal ⟨2, ![128, 768]⟩ .f32) (b1 : Fin 128 → EReal)
    (w2 : FVec Ideal ⟨2, ![16, 144]⟩ .f32) (b2 : Fin 16 → EReal)
    (w3 : FVec Ideal ⟨2, ![3, 16]⟩ .f32) (b3 : Fin 3 → EReal) : FVec Ideal ⟨2, ![32768, 3]⟩ .f32 := fun i =>
  outRow (fun k => bert (ix2 (⟨(i 0).val, idx2_lt0 i⟩ : Fin 32768) k)) (fun k => hd (ix2 (⟨(i 0).val, idx2_lt0 i⟩ : Fin 32768) k))
    (fun k => tl (ix2 (⟨(i 0).val, idx2_lt0 i⟩ : Fin 32768) k)) w1 b1 w2 b2 w3 b3
    ⟨(i 1).val, idx2_lt1 i⟩

theorem mlp_ix2 (bert : FVec Ideal ⟨2, ![32768, 768]⟩ .f32) (hd tl : FVec Ideal ⟨2, ![32768, 8]⟩ .f32)
    (w1 : FVec Ideal ⟨2, ![128, 768]⟩ .f32) (b1 : Fin 128 → EReal)
    (w2 : FVec Ideal ⟨2, ![16, 144]⟩ .f32) (b2 : Fin 16 → EReal)
    (w3 : FVec Ideal ⟨2, ![3, 16]⟩ .f32) (b3 : Fin 3 → EReal) (p : Fin 32768) (q : Fin 3) :
    mlp bert hd tl w1 b1 w2 b2 w3 b3 (ix2 p q)
      = outRow (fun k => bert (ix2 p k)) (fun k => hd (ix2 p k)) (fun k => tl (ix2 p k)) w1 b1 w2 b2 w3 b3 q := rfl

end Cert.Spec

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.RelBlock.lean ====
/-
  What one grid point of the first kernel leaves in its output block, entry by entry.

  The body loads the point's 10000 node rows `x0`, their neighbourhood means `x1`, the two stored 8×8 weight matrices and
  the bias row, and stores `x0·Wsᵀ + x1·Wnᵀ + bias`: at (p, q) the node's relearned feature `relRow` of row p. The two
  narrowings to bf16 on the way into the products are the identity on the extended reals.
-/
import proofs.«169725_j90993177133266_1_alg».proof.Proof.Gen.KernelIdeal.Frame
import proofs.«169725_j90993177133266_1_alg».proof.Proof.Spec
import proofs.«169725_j90993177133266_1_alg».proof.Proof.LibPlainDot
import proofs.«169725_j90993177133266_1_alg».proof.Proof.LibRowBias
import Idealize.ShloMosaic.Lib.Pipeline.Value
import Idealize.ShloMosaic.Lib.ValueIdx

set_option maxRecDepth 16384

noncomputable section

open scoped BigOperators

namespace Cert.KernelIdeal.RelBlock

open Cert.KernelIdeal Cert.KernelIdeal.Gen Idealize.ShloMosaic Idealize.ShloMosaic.ValueIdx

theorem hz : (![0, 0] : Fin 2 → Nat) = fun _ => 0 := funext fun a => by fin_cases a <;> rfl

/-- The body's stored value at (p, q) of the block. -/
theorem pay_apply (v0 v2 : Vec Ideal S10000x8 .f32) (v5 v7 : Vec Ideal S8x8 .f32) (v14 : Vec Ideal S1x8 .f32) (p : Fin 10000) (q : Fin 8) :
    k0_pay1 (F := Ideal) v0 v2 v5 v7 v14 (ix2 p q)
      = Spec.relRow (fun k => v0 (ix2 p k)) (fun k => v2 (ix2 p k)) v5 v7 (fun j => v14 (ix2 (0 : Fin 1) j)) q := by
  unfold k0_pay1 Spec.relRow
  dsimp only
  rw [addf_apply, addf_apply]
  refine congrArg₂ (· + ·) (congrArg₂ (· + ·) ?_ ?_) ?_
  · exact PlainDot.matmul_zero_transposed_apply (M := 10000) (K := 8) (N := 8) none (truncf .bf16 v0 bitsLt_bf16_f32) (truncf .bf16 v5 bitsLt_bf16_f32) transposes_S8x8_p1_0_S8x8 p q
  · rw [shapeCast_self]
    exact PlainDot.matmul_zero_transposed_apply (M := 10000) (K := 8) (N := 8) none (truncf .bf16 v2 bitsLt_bf16_f32) (truncf .bf16 v7 bitsLt_bf16_f32) transposes_S8x8_p1_0_S8x8 p q
  · rw [shapeCast_self]
    exact RowBias.rows_apply (M := 10000) (n := 8) v14 broadcasts_S1x8_S10000x8 p q

/-- What the body leaves in the output block, at (p, q). -/
theorem out_apply (x0 x1 : Vec Ideal S10000x8 .f32) (x2 x3 : Vec Ideal S8x8 .f32) (x4 : Vec Ideal S1x8 .f32) (p : Fin 10000) (q : Fin 8) :
    out0_5 (F := Ideal) x0 x1 x2 x3 x4 (ix2 p q)
      = Spec.relRow (fun k => x0 (ix2 p k)) (fun k => x1 (ix2 p k)) x2 x3 (fun j => x4 (ix2 (0 : Fin 1) j)) q := by
  unfold out0_5
  rw [View.canon_unit_zero hz]
  simp only [View.ld_unit_zero (S := S10000x8) hz, View.ld_unit_zero (S := S8x8) hz, View.ld_unit_zero (S := S1x8) hz]
  exact pay_apply x0 x1 x2 x3 x4 p q

end Cert.KernelIdeal.RelBlock

end
-- ==== Proof.RelArray.lean ====
/-
  The relearned table as the first kernel leaves it.

  The grid has ten points; point t reads node rows 10000·t … 10000·t + 9999 and their neighbourhood means, the two whole
  weight matrices and the whole bias row, and writes back rows 10000·t … 10000·t + 9999 of the result. So what point t
  writes is block t of ONE table, `relearn` of the arrays the region finds, and the ten blocks tile the 100000 rows:
  the table ends holding `relearn`. Stated for any contents `V` the region is entered with.
-/
import proofs.«169725_j90993177133266_1_alg».proof.Proof.Gen.KernelIdeal.Frame
import proofs.«169725_j90993177133266_1_alg».proof.Proof.Spec
import proofs.«169725_j90993177133266_1_alg».proof.Proof.RelBlock
import Idealize.ShloMosaic.Lib.Pipeline.Value
import Idealize.ShloMosaic.Lib.ValueIdx

set_option maxRecDepth 16384

noncomputable section

open scoped BigOperators

namespace Cert.KernelIdeal.RelArray

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The five arrays the region reads, at their literal types. -/
abbrev nodeA (c : Dev nD) : Vec Ideal S100000x8 .f32 := V c main_arg1
abbrev meanA (c : Dev nD) : Vec Ideal S100000x8 .f32 := V c main_v18
abbrev wsA (c : Dev nD) : Vec Ideal S8x8 .f32 := V c main_arg11
abbrev wnA (c : Dev nD) : Vec Ideal S8x8 .f32 := V c main_arg12
abbrev biasA (c : Dev nD) : Vec Ideal S1x8 .f32 := V c main_v19

/-- The table the region computes. -/
def table (c : Dev nD) : Vec Ideal S100000x8 .f32 :=
  Spec.relearn (nodeA V c) (meanA V c) (wsA V c) (wnA V c) (fun j => biasA V c (ix2 (0 : Fin 1) j))

/-- The printed index maps over the grid: the row windows move with the point, the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := Nat.lt_of_lt_of_eq t.isLt (N_0 : cfg0.N = 10)

/-- Row p of point t's node block is row 10000·t + p of the node array. -/
theorem node_blk (c : Dev nD) (t : Fin cfg0.N) (p : Fin 10000) (k : Fin 8) (P : Fin 100000) (hP : P.val = t.val * 10000 + p.val) :
    (iblk0 V c 0 t : Vec Ideal S10000x8 .f32) (ix2 p k) = nodeA V c (ix2 P k) := by
  obtain ⟨e0, e1, -⟩ := idx_facts t
  unfold iblk0
  rw [View.read_apply]
  show V c main_arg1 _ = V c main_arg1 _
  refine congrArg (V c main_arg1) ?_
  funext a
  apply Fin.ext
  match a with
  | ⟨0, _⟩ => show win0_0.index t 0 * 10000 + 1 * p.val = P.val; rw [e0, hP]; omega
  | ⟨1, _⟩ => show win0_0.index t 1 * 8 + 1 * k.val = k.val; rw [e1]; omega

theorem mean_blk (c : Dev nD) (t : Fin cfg0.N) (p : Fin 10000) (k : Fin 8) (P : Fin 100000) (hP : P.val = t.val * 10000 + p.val) :
    (iblk0 V c 1 t : Vec Ideal S10000x8 .f32) (ix2 p k) = meanA V c (ix2 P k) := by
  obtain ⟨-, -, e0, e1, -⟩ := idx_facts t
  unfold iblk0
  rw [View.read_apply]
  show V c main_v18 _ = V c main_v18 _
  refine congrArg (V c main_v18) ?_
  funext a
  apply Fin.ext
  match a with
  | ⟨0, _⟩ => show win0_1.index t 0 * 10000 + 1 * p.val = P.val; rw [e0, hP]; omega
  | ⟨1, _⟩ => show win0_1.index t 1 * 8 + 1 * k.val = k.val; rw [e1]; omega

/-- The weight and bias windows hold their whole arrays at every point. -/
theorem ws_blk (c : Dev nD) (t : Fin cfg0.N) : (iblk0 V c 2 t : Vec Ideal S8x8 .f32) = wsA V c := by
  obtain ⟨-, -, -, -, e0, e1, -⟩ := idx_facts t
  funext y
  unfold iblk0
  rw [View.read_apply]
  show V c main_arg11 _ = V c main_arg11 y
  refine congrArg (V c main_arg11) ?_
  funext a
  apply Fin.ext
  match a with
  | ⟨0, _⟩ => show win0_2.index t 0 * 8 + 1 * (y 0).val = (y 0).val; rw [e0]; omega
  | ⟨1, _⟩ => show win0_2.index t 1 * 8 + 1 * (y 1).val = (y 1).val; rw [e1]; omega

theorem wn_blk (c : Dev nD) (t : Fin cfg0.N) : (iblk0 V c 3 t : Vec Ideal S8x8 .f32) = wnA V c := by
  obtain ⟨-, -, -, -, -, -, e0, e1, -⟩ := idx_facts t
  funext y
  unfold iblk0
  rw [View.read_apply]
  show V c main_arg12 _ = V c main_arg12 y
  refine congrArg (V c main_arg12) ?_
  funext a
  apply Fin.ext
  match a with
  | ⟨0, _⟩ => show win0_3.index t 0 * 8 + 1 * (y 0).val = (y 0).val; rw [e0]; omega
  | ⟨1, _⟩ => show win0_3.index t 1 * 8 + 1 * (y 1).val = (y 1).val; rw [e1]; omega

theorem bias_blk (c : Dev nD) (t : Fin cfg0.N) : (iblk0 V c 4 t : Vec Ideal S1x8 .f32) = biasA V c := by
  obtain ⟨-, -, -, -, -, -, -, -, e0, e1, -⟩ := idx_facts t
  funext y
  unfold iblk0
  rw [View.read_apply]
  show V c main_v19 _ = V c main_v19 y
  refine congrArg (V c main_v19) ?_
  funext a
  apply Fin.ext
  match a with
  | ⟨0, _⟩ => show win0_4.index t 0 * 1 + 1 * (y 0).val = (y 0).val; rw [e0]; omega
  | ⟨1, _⟩ => show win0_4.index t 1 * 8 + 1 * (y 1).val = (y 1).val; rw [e1]; omega

/-- What point t writes back is block t of the table. -/
theorem flushed_eq (c : Dev nD) (t : Fin cfg0.N) :
    (dat0 V c).flushed 5 t = ((cfg0.win 5).blk t).view.read (Elt Ideal) (table V c) := by
  show (cfg0.win 5).cut (grid0.coords t) ((dat0 V c).after 5 t) = _
  rw [after0_5]
  obtain ⟨-, -, -, -, -, -, -, -, -, -, e0, e1⟩ := idx_facts t
  have ht := t_lt t
  funext j
  obtain ⟨p, q, rfl⟩ : ∃ (p : Fin 10000) (q : Fin 8), j = ix2 p q := ⟨j 0, j 1, eq_ix2 j⟩
  have hP : t.val * 10000 + p.val < 100000 := by have := p.isLt; omega
  refine (RelBlock.out_apply (iblk0 V c 0 t) (iblk0 V c 1 t) (iblk0 V c 2 t) (iblk0 V c 3 t) (iblk0 V c 4 t) p q).trans ?_
  rw [View.read_apply]
  have hemb : ((cfg0.win 5).blk t).view.emb (ix2 p q) = (ix2 (⟨t.val * 10000 + p.val, hP⟩ : Fin 100000) q : S100000x8.Idx) := by
    funext a
    apply Fin.ext
    match a with
    | ⟨0, _⟩ => show win0_5.index t 0 * 10000 + 1 * p.val = t.val * 10000 + p.val; rw [e0]; omega
    | ⟨1, _⟩ => show win0_5.index t 1 * 8 + 1 * q.val = q.val; rw [e1]; omega
  rw [hemb]
  unfold table
  rw [Spec.relearn_ix2, ws_blk, wn_blk, bias_blk]
  refine congrArg₂ (fun x h => Spec.relRow x h (wsA V c) (wnA V c) (fun j => biasA V c (ix2 (0 : Fin 1) j)) q) ?_ ?_
  · funext k; exact node_blk V c t p k ⟨t.val * 10000 + p.val, hP⟩ rfl
  · funext k; exact mean_blk V c t p k ⟨t.val * 10000 + p.val, hP⟩ rfl

/-- An index of the table is in point t's block iff its row is among the block's rows. -/
theorem mem_blk (t : Fin cfg0.N) (i : S100000x8.Idx) :
    i ∈ ((cfg0.win 5).blk t).view.set ↔ ∀ a : Fin 2, win0_5.index t a * S10000x8.size a ≤ (i a).val ∧ (i a).val < win0_5.index t a * S10000x8.size a + S10000x8.size a := by
  show i ∈ ((View.whole main_v20).slice (win0_5.rect t)).set ↔ _
  rw [View.set_slice_whole, Rect.mem_set_unit]
  exact Iff.rfl

/-- The table after the region. -/
theorem final (c : Dev nD) : (dat0 V c).arrAt 5 cfg0.N = table V c :=
  (dat0 V c).arrAt_eq_of_cover 5 (table V c) (fun t _ => flushed_eq V c t) fun i => by
    have h0 : (i 0).val < 100000 := (i 0).isLt
    have h1 : (i 1).val < 8 := (i 1).isLt
    have hN : cfg0.N = 10 := N_0
    refine ⟨⟨(i 0).val / 10000, by rw [hN]; omega⟩, flush0_5 _, ?_⟩
    rw [mem_blk]
    obtain ⟨-, -, -, -, -, -, -, -, -, -, e0, e1⟩ := idx_facts ⟨(i 0).val / 10000, by rw [hN]; omega⟩
    intro a
    match a with
    | ⟨0, _⟩ =>
      show win0_5.index _ 0 * 10000 ≤ (i 0).val ∧ (i 0).val < win0_5.index _ 0 * 10000 + 10000
      rw [e0]; show (i 0).val / 10000 * 10000 ≤ (i 0).val ∧ (i 0).val < (i 0).val / 10000 * 10000 + 10000; omega
    | ⟨1, _⟩ =>
      show win0_5.index _ 1 * 8 ≤ (i 1).val ∧ (i 1).val < win0_5.index _ 1 * 8 + 8
      rw [e1]; omega

end Cert.KernelIdeal.RelArray

end
-- ==== Proof.LibConcatCols.lean ====
/-
  Three column blocks laid side by side, read at an index.

  A row-major [M, 144] array made by concatenating an [M, 128], an [M, 8] and an [M, 8] array along the column axis
  holds at (p, k) the first piece at (p, k) when k < 128, the second at (p, k - 128) when 128 ≤ k < 136, and the third
  at (p, k - 136) otherwise. Generic in the number of rows.
-/
import Idealize.ShloMosaic.Lib.Pipeline.Value
import Idealize.ShloMosaic.Lib.ValueIdx

noncomputable section

namespace Cert.ConcatCols

open Idealize.ShloMosaic Idealize.ShloMosaic.ValueIdx

variable {α : Type} {M : Nat}

theorem concat3_apply (x1 : (⟨2, ![M, 128]⟩ : Shape).Idx → α) (x2 x3 : (⟨2, ![M, 8]⟩ : Shape).Idx → α)
    (h : Shape.Concatenates [(⟨2, ![M, 128]⟩ : Shape), ⟨2, ![M, 8]⟩, ⟨2, ![M, 8]⟩] ⟨2, ![M, 144]⟩ 1) (p : Fin M) (k : Fin 144) :
    concatenate ⟨2, ![M, 144]⟩ 1 [⟨⟨2, ![M, 128]⟩, x1⟩, ⟨⟨2, ![M, 8]⟩, x2⟩, ⟨⟨2, ![M, 8]⟩, x3⟩] h (ix2 p k)
      = if h1 : k.val < 128 then x1 (ix2 p ⟨k.val, h1⟩)
        else if h2 : k.val < 136 then x2 (ix2 p ⟨k.val - 128, by omega⟩)
        else x3 (ix2 p ⟨k.val - 136, by have := k.isLt; omega⟩) := by
  by_cases h1 : k.val < 128
  · rw [dif_pos h1]
    refine concatenate_apply_piece (t := ⟨2, ![M, 144]⟩) (1 : Fin 2) [⟨⟨2, ![M, 128]⟩, x1⟩, ⟨⟨2, ![M, 8]⟩, x2⟩, ⟨⟨2, ![M, 8]⟩, x3⟩] h (ix2 p k) 0 (Nat.zero_lt_succ _) ⟨2, ![M, 128]⟩ x1 rfl rfl 0 rfl (ix2 p ⟨k.val, h1⟩) ?_ ?_
    · intro b hb
      match b with
      | ⟨0, _⟩ => rfl
      | ⟨1, _⟩ => exact absurd rfl hb
    · show 0 + k.val = k.val
      omega
  · rw [dif_neg h1]
    by_cases h2 : k.val < 136
    · rw [dif_pos h2]
      refine concatenate_apply_piece (t := ⟨2, ![M, 144]⟩) (1 : Fin 2) [⟨⟨2, ![M, 128]⟩, x1⟩, ⟨⟨2, ![M, 8]⟩, x2⟩, ⟨⟨2, ![M, 8]⟩, x3⟩] h (ix2 p k) 1 (Nat.succ_lt_succ (Nat.zero_lt_succ _)) ⟨2, ![M, 8]⟩ x2 rfl rfl 128 rfl (ix2 p ⟨k.val - 128, by omega⟩) ?_ ?_
      · intro b hb
        match b with
        | ⟨0, _⟩ => rfl
        | ⟨1, _⟩ => exact absurd rfl hb
      · show 128 + (k.val - 128) = k.val
        omega
    · rw [dif_neg h2]
      refine concatenate_apply_piece (t := ⟨2, ![M, 144]⟩) (1 : Fin 2) [⟨⟨2, ![M, 128]⟩, x1⟩, ⟨⟨2, ![M, 8]⟩, x2⟩, ⟨⟨2, ![M, 8]⟩, x3⟩] h (ix2 p k) 2 (Nat.succ_lt_succ (Nat.succ_lt_succ (Nat.zero_lt_succ _))) ⟨2, ![M, 8]⟩ x3 rfl rfl 136 rfl (ix2 p ⟨k.val - 136, by have := k.isLt; omega⟩) ?_ ?_
      · intro b hb
        match b with
        | ⟨0, _⟩ => rfl
        | ⟨1, _⟩ => exact absurd rfl hb
      · show 136 + (k.val - 136) = k.val
        omega

end Cert.ConcatCols

end
-- ==== Proof.MlpBlock.lean ====
/-
  What one grid point of the second kernel leaves in its output block, entry by entry.

  The body loads the point's 2048 batch rows of text features `v0`, the relearned rows `v12`, `v14` of their head and tail
  nodes, the three stored weight matrices and the three bias rows, and stores the three-layer classifier of each row: at
  (p, q) the output `outRow` of row p. Layer by layer: the first hidden layer (`hid1`), the 144-wide row the second layer
  reads (`cat`: the hidden layer, then the head's features, then the tail's), the second hidden layer (`hid2`), the output.
  Narrowing to bf16 on the way into a product is the identity on the extended reals.
-/
import proofs.«169725_j90993177133266_1_alg».proof.Proof.Gen.KernelIdeal.Frame
import proofs.«169725_j90993177133266_1_alg».proof.Proof.Spec
import proofs.«169725_j90993177133266_1_alg».proof.Proof.LibPlainDot
import proofs.«169725_j90993177133266_1_alg».proof.Proof.LibRowBias
import proofs.«169725_j90993177133266_1_alg».proof.Proof.LibConcatCols
import Idealize.ShloMosaic.Lib.Pipeline.Value
import Idealize.ShloMosaic.Lib.ValueIdx

set_option maxRecDepth 16384

noncomputable section

open scoped BigOperators

namespace Cert.KernelIdeal.MlpBlock

open Cert.KernelIdeal Cert.KernelIdeal.Gen Idealize.ShloMosaic Idealize.ShloMosaic.ValueIdx

theorem hz : (![0, 0] : Fin 2 → Nat) = fun _ => 0 := funext fun a => by fin_cases a <;> rfl

/-- The first hidden layer of the block, as the body computes it. -/
def h1 (v0 : Vec Ideal S2048x768 .f32) (v2 : Vec Ideal S128x768 .f32) (v6 : Vec Ideal S1x128 .f32) : FVec Ideal S2048x128 .f32 :=
  maximumf (addf (matmul dot_S2048x768_S768x128_S2048x128_1_0_0_1_n_n none (truncf .bf16 v0 bitsLt_bf16_f32)
      (transpose S768x128 [1, 0] (truncf .bf16 v2 bitsLt_bf16_f32) transposes_S128x768_p1_0_S768x128) (constant S2048x128 .f32 0x00000000#32))
    (broadcastTo S2048x128 (shapeCast S1x128 v6 shapeCasts_S1x128_S1x128) broadcasts_S1x128_S2048x128))
    (broadcast S2048x128 (Scalar.ofBits .f32 0x00000000#32))

theorem h1_apply (v0 : Vec Ideal S2048x768 .f32) (v2 : Vec Ideal S128x768 .f32) (v6 : Vec Ideal S1x128 .f32) (p : Fin 2048) (j : Fin 128) :
    h1 v0 v2 v6 (ix2 p j) = Spec.hid1 (fun k => v0 (ix2 p k)) v2 (fun j => v6 (ix2 (0 : Fin 1) j)) j := by
  unfold h1 Spec.hid1
  rw [maximumf_apply, addf_apply, broadcast_apply]
  refine congrArg₂ max (congrArg₂ (· + ·) ?_ ?_) rfl
  · exact PlainDot.matmul_zero_transposed_apply (M := 2048) (K := 768) (N := 128) none (truncf .bf16 v0 bitsLt_bf16_f32) (truncf .bf16 v2 bitsLt_bf16_f32) transposes_S128x768_p1_0_S768x128 p j
  · rw [shapeCast_self]
    exact RowBias.rows_apply (M := 2048) (n := 128) v6 broadcasts_S1x128_S2048x128 p j

/-- The 144-wide rows the second layer reads. -/
def ct (v0 : Vec Ideal S2048x768 .f32) (v2 : Vec Ideal S128x768 .f32) (v6 : Vec Ideal S1x128 .f32) (v12 v14 : Vec Ideal S2048x8 .f32) : FVec Ideal S2048x144 .f32 :=
  concatenate S2048x144 1 [⟨S2048x128, h1 v0 v2 v6⟩, ⟨S2048x8, shapeCast S2048x8 v12 shapeCasts_S2048x8_S2048x8⟩, ⟨S2048x8, shapeCast S2048x8 v14 shapeCasts_S2048x8_S2048x8⟩]
    concatenates_S2048x128_S2048x8_S2048x8_S2048x144_d1

theorem ct_apply (v0 : Vec Ideal S2048x768 .f32) (v2 : Vec Ideal S128x768 .f32) (v6 : Vec Ideal S1x128 .f32) (v12 v14 : Vec Ideal S2048x8 .f32)
    (p : Fin 2048) (k : Fin 144) :
    ct v0 v2 v6 v12 v14 (ix2 p k)
      = Spec.cat (fun k => v0 (ix2 p k)) (fun k => v12 (ix2 p k)) (fun k => v14 (ix2 p k)) v2 (fun j => v6 (ix2 (0 : Fin 1) j)) k := by
  unfold ct Spec.cat
  rw [shapeCast_self, shapeCast_self]
  refine (ConcatCols.concat3_apply (M := 2048) (h1 v0 v2 v6) v12 v14 concatenates_S2048x128_S2048x8_S2048x8_S2048x144_d1 p k).trans ?_
  by_cases c1 : k.val < 128
  · rw [dif_pos c1, dif_pos c1]; exact h1_apply v0 v2 v6 p ⟨k.val, c1⟩
  · rw [dif_neg c1, dif_neg c1]

/-- The second hidden layer of the block. -/
def h2 (v0 : Vec Ideal S2048x768 .f32) (v2 : Vec Ideal S128x768 .f32) (v6 : Vec Ideal S1x128 .f32) (v12 v14 : Vec Ideal S2048x8 .f32)
    (v18 : Vec Ideal S16x144 .f32) (v22 : Vec Ideal S1x16 .f32) : FVec Ideal S2048x16 .f32 :=
  maximumf (addf (matmul dot_S2048x144_S144x16_S2048x16_1_0_0_1_n_n none (truncf .bf16 (ct v0 v2 v6 v12 v14) bitsLt_bf16_f32)
      (transpose S144x16 [1, 0] (truncf .bf16 v18 bitsLt_bf16_f32) transposes_S16x144_p1_0_S144x16) (constant S2048x16 .f32 0x00000000#32))
    (broadcastTo S2048x16 (shapeCast S1x16 v22 shapeCasts_S1x16_S1x16) broadcasts_S1x16_S2048x16))
    (broadcast S2048x16 (Scalar.ofBits .f32 0x00000000#32))

theorem h2_apply (v0 : Vec Ideal S2048x768 .f32) (v2 : Vec Ideal S128x768 .f32) (v6 : Vec Ideal S1x128 .f32) (v12 v14 : Vec Ideal S2048x8 .f32)
    (v18 : Vec Ideal S16x144 .f32) (v22 : Vec Ideal S1x16 .f32) (p : Fin 2048) (j : Fin 16) :
    h2 v0 v2 v6 v12 v14 v18 v22 (ix2 p j)
      = Spec.hid2 (fun k => v0 (ix2 p k)) (fun k => v12 (ix2 p k)) (fun k => v14 (ix2 p k)) v2 (fun j => v6 (ix2 (0 : Fin 1) j))
          v18 (fun j => v22 (ix2 (0 : Fin 1) j)) j := by
  unfold h2 Spec.hid2
  rw [maximumf_apply, addf_apply, broadcast_apply]
  refine congrArg₂ max (congrArg₂ (· + ·) ?_ ?_) rfl
  · refine (PlainDot.matmul_zero_transposed_apply (M := 2048) (K := 144) (N := 16) none (truncf .bf16 (ct v0 v2 v6 v12 v14) bitsLt_bf16_f32) (truncf .bf16 v18 bitsLt_bf16_f32) transposes_S16x144_p1_0_S144x16 p j).trans ?_
    exact Finset.sum_congr rfl fun k _ => congrArg (· * v18 (ix2 j k)) (ct_apply v0 v2 v6 v12 v14 p k)
  · rw [shapeCast_self]
    exact RowBias.rows_apply (M := 2048) (n := 16) v22 broadcasts_S1x16_S2048x16 p j

/-- The body's stored value at (p, q) of the block. -/
theorem pay_apply (v0 : Vec Ideal S2048x768 .f32) (v2 : Vec Ideal S128x768 .f32) (v6 : Vec Ideal S1x128 .f32) (v12 v14 : Vec Ideal S2048x8 .f32)
    (v18 : Vec Ideal S16x144 .f32) (v22 : Vec Ideal S1x16 .f32) (v29 : Vec Ideal S3x16 .f32) (v33 : Vec Ideal S1x3 .f32) (p : Fin 2048) (q : Fin 3) :
    k1_pay1 (F := Ideal) (k1_pay2 v0 v2 v6 v12 v14 v18 v22 v29) (k1_pay3 v33) (ix2 p q)
      = Spec.outRow (fun k => v0 (ix2 p k)) (fun k => v12 (ix2 p k)) (fun k => v14 (ix2 p k)) v2 (fun j => v6 (ix2 (0 : Fin 1) j))
          v18 (fun j => v22 (ix2 (0 : Fin 1) j)) v29 (fun j => v33 (ix2 (0 : Fin 1) j)) q := by
  have e2 : k1_pay2 (F := Ideal) v0 v2 v6 v12 v14 v18 v22 v29
      = matmul dot_S2048x16_S16x3_S2048x3_1_0_0_1_n_n none (truncf .bf16 (h2 v0 v2 v6 v12 v14 v18 v22) bitsLt_bf16_f32)
          (transpose S16x3 [1, 0] (truncf .bf16 v29 bitsLt_bf16_f32) transposes_S3x16_p1_0_S16x3) (constant S2048x3 .f32 0x00000000#32) := rfl
  unfold k1_pay1 k1_pay3 Spec.outRow
  dsimp only
  rw [e2, addf_apply]
  refine congrArg₂ (· + ·) ?_ ?_
  · refine (PlainDot.matmul_zero_transposed_apply (M := 2048) (K := 16) (N := 3) none (truncf .bf16 (h2 v0 v2 v6 v12 v14 v18 v22) bitsLt_bf16_f32) (truncf .bf16 v29 bitsLt_bf16_f32) transposes_S3x16_p1_0_S16x3 p q).trans ?_
    exact Finset.sum_congr rfl fun k _ => congrArg (· * v29 (ix2 q k)) (h2_apply v0 v2 v6 v12 v14 v18 v22 p k)
  · rw [shapeCast_self]
    exact RowBias.rows_apply (M := 2048) (n := 3) v33 broadcasts_S1x3_S2048x3 p q

/-- What the body leaves in the output block, at (p, q). -/
theorem out_apply (x0 : Vec Ideal S2048x768 .f32) (x1 x2 : Vec Ideal S2048x8 .f32) (x3 : Vec Ideal S128x768 .f32) (x4 : Vec Ideal S1x128 .f32)
    (x5 : Vec Ideal S16x144 .f32) (x6 : Vec Ideal S1x16 .f32) (x7 : Vec Ideal S3x16 .f32) (x8 : Vec Ideal S1x3 .f32) (p : Fin 2048) (q : Fin 3) :
    out1_9 (F := Ideal) x0 x1 x2 x3 x4 x5 x6 x7 x8 (ix2 p q)
      = Spec.outRow (fun k => x0 (ix2 p k)) (fun k => x1 (ix2 p k)) (fun k => x2 (ix2 p k)) x3 (fun j => x4 (ix2 (0 : Fin 1) j))
          x5 (fun j => x6 (ix2 (0 : Fin 1) j)) x7 (fun j => x8 (ix2 (0 : Fin 1) j)) q := by
  unfold out1_9
  rw [View.canon_unit_zero hz]
  simp only [View.ld_unit_zero (S := S2048x768) hz, View.ld_unit_zero (S := S128x768) hz, View.ld_unit_zero (S := S1x128) hz,
    View.ld_unit_zero (S := S2048x8) hz, View.ld_unit_zero (S := S16x144) hz, View.ld_unit_zero (S := S1x16) hz,
    View.ld_unit_zero (S := S3x16) hz, View.ld_unit_zero (S := S1x3) hz]
  exact pay_apply x0 x3 x4 x1 x2 x5 x6 x7 x8 p q

end Cert.KernelIdeal.MlpBlock

end
-- ==== Proof.MlpArray.lean ====
/-
  The result array as the second kernel leaves it.

  The grid has sixteen points; point t reads batch rows 2048·t … 2048·t + 2047 of the text features and of the head and
  tail nodes' relearned rows, the three whole weight matrices and the three whole bias rows, and writes back rows
  2048·t … 2048·t + 2047 of the result. So what point t writes is block t of ONE array, `mlp` of the arrays the region
  finds, and the sixteen blocks tile the 32768 rows: the result ends holding `mlp`. Stated for any contents `V` the
  region is entered with.
-/
import proofs.«169725_j90993177133266_1_alg».proof.Proof.Gen.KernelIdeal.Frame
import proofs.«169725_j90993177133266_1_alg».proof.Proof.Spec
import proofs.«169725_j90993177133266_1_alg».proof.Proof.MlpBlock
import Idealize.ShloMosaic.Lib.Pipeline.Value
import Idealize.ShloMosaic.Lib.ValueIdx

set_option maxRecDepth 16384

noncomputable section

open scoped BigOperators

namespace Cert.KernelIdeal.MlpArray

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The nine arrays the region reads, at their literal types. -/
abbrev bertA (c : Dev nD) : Vec Ideal S32768x768 .f32 := V c main_arg0
abbrev headA (c : Dev nD) : Vec Ideal S32768x8 .f32 := V c main_v29
abbrev tailA (c : Dev nD) : Vec Ideal S32768x8 .f32 := V c main_v38
abbrev w1A (c : Dev nD) : Vec Ideal S128x768 .f32 := V c main_arg5
abbrev b1A (c : Dev nD) : Vec Ideal S1x128 .f32 := V c main_v39
abbrev w2A (c : Dev nD) : Vec Ideal S16x144 .f32 := V c main_arg7
abbrev b2A (c : Dev nD) : Vec Ideal S1x16 .f32 := V c main_v40
abbrev w3A (c : Dev nD) : Vec Ideal S3x16 .f32 := V c main_arg9
abbrev b3A (c : Dev nD) : Vec Ideal S1x3 .f32 := V c main_v41

/-- The array the region computes. -/
def result (c : Dev nD) : Vec Ideal S32768x3 .f32 :=
  Spec.mlp (bertA V c) (headA V c) (tailA V c) (w1A V c) (fun j => b1A V c (ix2 (0 : Fin 1) j)) (w2A V c)
    (fun j => b2A V c (ix2 (0 : Fin 1) j)) (w3A V c) (fun j => b3A V c (ix2 (0 : Fin 1) j))

/-- The printed index maps over the grid: the row windows move with the point, the others stay at the origin. -/
theorem idx_rows0 : ∀ t : Fin cfg1.N, win1_0.index t (0 : Fin 2) = t.val ∧ win1_0.index t (1 : Fin 2) = 0 :=
  (by decide +kernel : ∀ t : Fin grid1.N, _)
theorem idx_rows1 : ∀ t : Fin cfg1.N, win1_1.index t (0 : Fin 2) = t.val ∧ win1_1.index t (1 : Fin 2) = 0 :=
  (by decide +kernel : ∀ t : Fin grid1.N, _)
theorem idx_rows2 : ∀ t : Fin cfg1.N, win1_2.index t (0 : Fin 2) = t.val ∧ win1_2.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_whole5 : ∀ t : Fin cfg1.N, win1_5.index t (0 : Fin 2) = 0 ∧ win1_5.index t (1 : Fin 2) = 0 :=
  (by decide +kernel : ∀ t : Fin grid1.N, _)
theorem idx_whole6 : ∀ t : Fin cfg1.N, win1_6.index t (0 : Fin 2) = 0 ∧ win1_6.index t (1 : Fin 2) = 0 :=
  (by decide +kernel : ∀ t : Fin grid1.N, _)
theorem idx_whole7 : ∀ t : Fin cfg1.N, win1_7.index t (0 : Fin 2) = 0 ∧ win1_7.index t (1 : Fin 2) = 0 :=
  (by decide +kernel : ∀ t : Fin grid1.N, _)
theorem idx_whole8 : ∀ t : Fin cfg1.N, win1_8.index t (0 : Fin 2) = 0 ∧ win1_8.index t (1 : Fin 2) = 0 :=
  (by decide +kernel : ∀ t : Fin grid1.N, _)
theorem idx_rows9 : ∀ t : Fin cfg1.N, win1_9.index t (0 : Fin 2) = t.val ∧ win1_9.index t (1 : Fin 2) = 0 :=
  (by decide +kernel : ∀ t : Fin grid1.N, _)

theorem t_lt (t : Fin cfg1.N) : t.val < 16 := Nat.lt_of_lt_of_eq t.isLt (N_1 : cfg1.N = 16)

/-- Row p of point t's blocks is row 2048·t + p of the arrays. -/
theorem bert_blk (c : Dev nD) (t : Fin cfg1.N) (p : Fin 2048) (k : Fin 768) (P : Fin 32768) (hP : P.val = t.val * 2048 + p.val) :
    (iblk1 V c 0 t : Vec Ideal S2048x768 .f32) (ix2 p k) = bertA V c (ix2 P k) := by
  obtain ⟨e0, e1⟩ := idx_rows0 t
  unfold iblk1
  rw [View.read_apply]
  show V c main_arg0 _ = V c main_arg0 _
  refine congrArg (V c main_arg0) ?_
  funext a
  apply Fin.ext
  match a with
  | ⟨0, _⟩ => show win1_0.index t 0 * 2048 + 1 * p.val = P.val; rw [e0, hP]; omega
  | ⟨1, _⟩ => show win1_0.index t 1 * 768 + 1 * k.val = k.val; rw [e1]; omega

theorem head_blk (c : Dev nD) (t : Fin cfg1.N) (p : Fin 2048) (k : Fin 8) (P : Fin 32768) (hP : P.val = t.val * 2048 + p.val) :
    (iblk1 V c 1 t : Vec Ideal S2048x8 .f32) (ix2 p k) = headA V c (ix2 P k) := by
  obtain ⟨e0, e1⟩ := idx_rows1 t
  unfold iblk1
  rw [View.read_apply]
  show V c main_v29 _ = V c main_v29 _
  refine congrArg (V c main_v29) ?_
  funext a
  apply Fin.ext
  match a with
  | ⟨0, _⟩ => show win1_1.index t 0 * 2048 + 1 * p.val = P.val; rw [e0, hP]; omega
  | ⟨1, _⟩ => show win1_1.index t 1 * 8 + 1 * k.val = k.val; rw [e1]; omega

theorem tail_blk (c : Dev nD) (t : Fin cfg1.N) (p : Fin 2048) (k : Fin 8) (P : Fin 32768) (hP : P.val = t.val * 2048 + p.val) :
    (iblk1 V c 2 t : Vec Ideal S2048x8 .f32) (ix2 p k) = tailA V c (ix2 P k) := by
  obtain ⟨e0, e1⟩ := idx_rows2 t
  unfold iblk1
  rw [View.read_apply]
  show V c main_v38 _ = V c main_v38 _
  refine congrArg (V c main_v38) ?_
  funext a
  apply Fin.ext
  match a with
  | ⟨0, _⟩ => show win1_2.index t 0 * 2048 + 1 * p.val = P.val; rw [e0, hP]; omega
  | ⟨1, _⟩ => show win1_2.index t 1 * 8 + 1 * k.val = k.val; rw [e1]; omega

/-- The weight and bias windows hold their whole arrays at every point. -/
theorem w1_blk (c : Dev nD) (t : Fin cfg1.N) : (iblk1 V c 3 t : Vec Ideal S128x768 .f32) = w1A V c := by
  obtain ⟨e0, e1⟩ := idx_whole3 t
  funext y
  unfold iblk1
  rw [View.read_apply]
  show V c main_arg5 _ = V c main_arg5 y
  refine congrArg (V c main_arg5) ?_
  funext a
  apply Fin.ext
  match a with
  | ⟨0, _⟩ => show win1_3.index t 0 * 128 + 1 * (y 0).val = (y 0).val; rw [e0]; omega
  | ⟨1, _⟩ => show win1_3.index t 1 * 768 + 1 * (y 1).val = (y 1).val; rw [e1]; omega

theorem b1_blk (c : Dev nD) (t : Fin cfg1.N) : (iblk1 V c 4 t : Vec Ideal S1x128 .f32) = b1A V c := by
  obtain ⟨e0, e1⟩ := idx_whole4 t
  funext y
  unfold iblk1
  rw [View.read_apply]
  show V c main_v39 _ = V c main_v39 y
  refine congrArg (V c main_v39) ?_
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

theorem w2_blk (c : Dev nD) (t : Fin cfg1.N) : (iblk1 V c 5 t : Vec Ideal S16x144 .f32) = w2A V c := by
  obtain ⟨e0, e1⟩ := idx_whole5 t
  funext y
  unfold iblk1
  rw [View.read_apply]
  show V c main_arg7 _ = V c main_arg7 y
  refine congrArg (V c main_arg7) ?_
  funext a
  apply Fin.ext
  match a with
  | ⟨0, _⟩ => show win1_5.index t 0 * 16 + 1 * (y 0).val = (y 0).val; rw [e0]; omega
  | ⟨1, _⟩ => show win1_5.index t 1 * 144 + 1 * (y 1).val = (y 1).val; rw [e1]; omega

theorem b2_blk (c : Dev nD) (t : Fin cfg1.N) : (iblk1 V c 6 t : Vec Ideal S1x16 .f32) = b2A V c := by
  obtain ⟨e0, e1⟩ := idx_whole6 t
  funext y
  unfold iblk1
  rw [View.read_apply]
  show V c main_v40 _ = V c main_v40 y
  refine congrArg (V c main_v40) ?_
  funext a
  apply Fin.ext
  match a with
  | ⟨0, _⟩ => show win1_6.index t 0 * 1 + 1 * (y 0).val = (y 0).val; rw [e0]; omega
  | ⟨1, _⟩ => show win1_6.index t 1 * 16 + 1 * (y 1).val = (y 1).val; rw [e1]; omega

theorem w3_blk (c : Dev nD) (t : Fin cfg1.N) : (iblk1 V c 7 t : Vec Ideal S3x16 .f32) = w3A V c := by
  obtain ⟨e0, e1⟩ := idx_whole7 t
  funext y
  unfold iblk1
  rw [View.read_apply]
  show V c main_arg9 _ = V c main_arg9 y
  refine congrArg (V c main_arg9) ?_
  funext a
  apply Fin.ext
  match a with
  | ⟨0, _⟩ => show win1_7.index t 0 * 3 + 1 * (y 0).val = (y 0).val; rw [e0]; omega
  | ⟨1, _⟩ => show win1_7.index t 1 * 16 + 1 * (y 1).val = (y 1).val; rw [e1]; omega

theorem b3_blk (c : Dev nD) (t : Fin cfg1.N) : (iblk1 V c 8 t : Vec Ideal S1x3 .f32) = b3A V c := by
  obtain ⟨e0, e1⟩ := idx_whole8 t
  funext y
  unfold iblk1
  rw [View.read_apply]
  show V c main_v41 _ = V c main_v41 y
  refine congrArg (V c main_v41) ?_
  funext a
  apply Fin.ext
  match a with
  | ⟨0, _⟩ => show win1_8.index t 0 * 1 + 1 * (y 0).val = (y 0).val; rw [e0]; omega
  | ⟨1, _⟩ => show win1_8.index t 1 * 3 + 1 * (y 1).val = (y 1).val; rw [e1]; omega

/-- What point t writes back is block t of the result. -/
theorem flushed_eq (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9]
  obtain ⟨e0, e1⟩ := idx_rows9 t
  have ht := t_lt t
  funext j
  show out1_9 (F := Ideal) (iblk1 V c 0 t) (iblk1 V c 1 t) (iblk1 V c 2 t) (iblk1 V c 3 t) (iblk1 V c 4 t) (iblk1 V c 5 t)
    (iblk1 V c 6 t) (iblk1 V c 7 t) (iblk1 V c 8 t) j = result V c (((cfg1.win 9).blk t).view.emb j)
  obtain ⟨p, q, rfl⟩ : ∃ (p : Fin 2048) (q : Fin 3), j = ix2 p q := ⟨j 0, j 1, eq_ix2 j⟩
  have hP : t.val * 2048 + p.val < 32768 := by have := p.isLt; omega
  have hemb : ((cfg1.win 9).blk t).view.emb (ix2 p q) = (ix2 (⟨t.val * 2048 + p.val, hP⟩ : Fin 32768) q : S32768x3.Idx) := by
    funext a
    apply Fin.ext
    match a with
    | ⟨0, _⟩ => show win1_9.index t 0 * 2048 + 1 * p.val = t.val * 2048 + p.val; rw [e0]; omega
    | ⟨1, _⟩ => show win1_9.index t 1 * 3 + 1 * q.val = q.val; rw [e1]; omega
  rw [hemb]
  unfold result
  rw [Spec.mlp_ix2]
  refine (MlpBlock.out_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  rw [w1_blk, b1_blk, w2_blk, b2_blk, w3_blk, b3_blk]
  have key : ∀ (x x' : Fin 768 → EReal) (hd hd' tl tl' : Fin 8 → EReal), x = x' → hd = hd' → tl = tl' →
      Spec.outRow x hd tl (w1A V c) (fun j => b1A V c (ix2 (0 : Fin 1) j)) (w2A V c) (fun j => b2A V c (ix2 (0 : Fin 1) j))
        (w3A V c) (fun j => b3A V c (ix2 (0 : Fin 1) j)) q
      = Spec.outRow x' hd' tl' (w1A V c) (fun j => b1A V c (ix2 (0 : Fin 1) j)) (w2A V c) (fun j => b2A V c (ix2 (0 : Fin 1) j))
        (w3A V c) (fun j => b3A V c (ix2 (0 : Fin 1) j)) q := by
    intro x x' hd hd' tl tl' h1 h2 h3; subst h1; subst h2; subst h3; rfl
  exact key _ _ _ _ _ _
    (funext fun k => bert_blk V c t p k ⟨t.val * 2048 + p.val, hP⟩ rfl)
    (funext fun k => head_blk V c t p k ⟨t.val * 2048 + p.val, hP⟩ rfl)
    (funext fun k => tail_blk V c t p k ⟨t.val * 2048 + p.val, hP⟩ rfl)

/-- An index of the result is in point t's block iff its row is among the block's rows. -/
theorem mem_blk (t : Fin cfg1.N) (i : S32768x3.Idx) :
    i ∈ ((cfg1.win 9).blk t).view.set ↔ ∀ a : Fin 2, win1_9.index t a * S2048x3.size a ≤ (i a).val ∧ (i a).val < win1_9.index t a * S2048x3.size a + S2048x3.size a := by
  show i ∈ ((View.whole main_v42).slice (win1_9.rect t)).set ↔ _
  rw [View.set_slice_whole, Rect.mem_set_unit]
  exact Iff.rfl

/-- The result after the region. -/
theorem final (c : Dev nD) : (dat1 V c).arrAt 9 cfg1.N = result V c :=
  (dat1 V c).arrAt_eq_of_cover 9 (result V c) (fun t _ => flushed_eq V c t) fun i => by
    have h0 : (i 0).val < 32768 := (i 0).isLt
    have h1 : (i 1).val < 3 := (i 1).isLt
    have hN : cfg1.N = 16 := N_1
    refine ⟨⟨(i 0).val / 2048, by rw [hN]; omega⟩, flush1_9 _, ?_⟩
    rw [mem_blk]
    obtain ⟨e0, e1⟩ := idx_rows9 ⟨(i 0).val / 2048, by rw [hN]; omega⟩
    intro a
    match a with
    | ⟨0, _⟩ =>
      show win1_9.index _ 0 * 2048 ≤ (i 0).val ∧ (i 0).val < win1_9.index _ 0 * 2048 + 2048
      rw [e0]; show (i 0).val / 2048 * 2048 ≤ (i 0).val ∧ (i 0).val < (i 0).val / 2048 * 2048 + 2048; omega
    | ⟨1, _⟩ =>
      show win1_9.index _ 1 * 3 ≤ (i 1).val ∧ (i 1).val < win1_9.index _ 1 * 3 + 3
      rw [e1]; omega

end Cert.KernelIdeal.MlpArray

end
-- ==== Proof.KHost.lean ====
/-
  What the two kernels find in their arrays, and so what the program's result holds.

  Before the first kernel the host gathers each edge's source row, sums the rows and the edge counts by destination and
  divides: the neighbourhood mean (`meanK`). The first kernel is entered with the node features, that mean, the two
  weight matrices and the bias laid out as a row, and leaves the relearned table. Between the kernels the host gathers
  the head and tail rows from the table by the two rows of the index array (each row read with negative entries
  wrapped: `rowIdx0`, `rowIdx1`) and lays the three biases out as rows. The second kernel is entered with the text
  features, the gathered rows, the weights and the bias rows, and leaves the classifier's outputs.
-/
import proofs.«169725_j90993177133266_1_alg».proof.Proof.Gen.KernelIdeal.Frame
import proofs.«169725_j90993177133266_1_alg».proof.Proof.Spec
import proofs.«169725_j90993177133266_1_alg».proof.Proof.LibRowBias
import proofs.«169725_j90993177133266_1_alg».proof.Proof.RelArray
import proofs.«169725_j90993177133266_1_alg».proof.Proof.MlpArray
import Idealize.ShloMosaic.Lib.Pipeline.Value
import Idealize.ShloMosaic.Lib.ValueIdx
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.ShloMosaic.ValueIdx
open Idealize.ShloMosaic.StableHlo Idealize.SL.Sem

/-- The neighbourhood mean as the host computes it: the source rows gathered, summed by destination, and divided by the
    destination's edge count clamped below at one. -/
def meanK (x1 : FVec Ideal S100000x8 .f32) (x2 x3 : IVec S3200000 32) : FVec Ideal S100000x8 .f32 :=
  Host.divf
    (Host.scatterAdd scatter_S100000x8_S3200000x1_S3200000x8_1_0_0_1
      (broadcastInDim S100000x8 ![] bcast_S_S100000x8 (constant S_ .f32 0x00000000#32))
      (broadcastInDim S3200000x1 ![0] bcast_S3200000_S3200000x1_0 x3)
      (Host.gather gather_S100000x8_S3200000x1_S3200000x8_1_0_n_n_0_1_18 x1
        (broadcastInDim S3200000x1 ![0] bcast_S3200000_S3200000x1_0
          (select (cmpi .slt x2 (broadcastInDim S3200000 ![] bcast_S_S3200000 (constantI S_ 32 0#32)))
            (addi x2 (broadcastInDim S3200000 ![] bcast_S_S3200000 (constantI S_ 32 100000#32))) x2))))
    (broadcastInDim S100000x8 ![0, 1] bcast_S100000x1_S100000x8_0_1
      (broadcastInDim S100000x1 ![0] bcast_S100000_S100000x1_0
        (maximumf
          (Host.scatterAdd scatter_S100000_S3200000x1_S3200000_n_0_0_1
            (broadcastInDim S100000 ![] bcast_S_S100000 (constant S_ .f32 0x00000000#32))
            (broadcastInDim S3200000x1 ![0] bcast_S3200000_S3200000x1_0 x3)
            (broadcastInDim S3200000 ![] bcast_S_S3200000 (constant S_ .f32 0x3F800000#32)))
          (broadcastInDim S100000 ![] bcast_S_S100000 (constant S_ .f32 0x3F800000#32)))))

/-- Row 0 of the index array as the gather's start indices: negative entries wrapped by the table's length. -/
def rowIdx0 (x4 : IVec S2x32768 32) : IVec S32768x1 32 :=
  broadcastInDim S32768x1 ![0] bcast_S32768_S32768x1_0
    (select
      (cmpi .slt (shapeCast S32768 (extractStridedSlice S1x32768 ![0, 0] x4 slices_S2x32768_S1x32768_0_0) shapeCasts_S1x32768_S32768)
        (broadcastInDim S32768 ![] bcast_S_S32768 (constantI S_ 32 0#32)))
      (addi (shapeCast S32768 (extractStridedSlice S1x32768 ![0, 0] x4 slices_S2x32768_S1x32768_0_0) shapeCasts_S1x32768_S32768)
        (broadcastInDim S32768 ![] bcast_S_S32768 (constantI S_ 32 100000#32)))
      (shapeCast S32768 (extractStridedSlice S1x32768 ![0, 0] x4 slices_S2x32768_S1x32768_0_0) shapeCasts_S1x32768_S32768))

/-- Row 1 of the index array, likewise. -/
def rowIdx1 (x4 : IVec S2x32768 32) : IVec S32768x1 32 :=
  broadcastInDim S32768x1 ![0] bcast_S32768_S32768x1_0
    (select
      (cmpi .slt (shapeCast S32768 (extractStridedSlice S1x32768 ![1, 0] x4 slices_S2x32768_S1x32768_1_0) shapeCasts_S1x32768_S32768)
        (broadcastInDim S32768 ![] bcast_S_S32768 (constantI S_ 32 0#32)))
      (addi (shapeCast S32768 (extractStridedSlice S1x32768 ![1, 0] x4 slices_S2x32768_S1x32768_1_0) shapeCasts_S1x32768_S32768)
        (broadcastInDim S32768 ![] bcast_S_S32768 (constantI S_ 32 100000#32)))
      (shapeCast S32768 (extractStridedSlice S1x32768 ![1, 0] x4 slices_S2x32768_S1x32768_1_0) shapeCasts_S1x32768_S32768))

variable (m : (ℓ : Loc nD τ sig) → Buf (Elt Ideal) ℓ) (ρ : Dev nD → PrngReg)

/-! ## The first kernel's arrays -/

theorem V1_node (c : Dev nD) : RelArray.nodeA (V1 m ρ) c = (m ((c : Thread nD τ).loc main_arg1)) := by
  show StableHlo.after hostOps0 (W0 m ρ c) (Proc.devRef .tc main_arg1) = _
  after_results

theorem V1_ws (c : Dev nD) : RelArray.wsA (V1 m ρ) c = (m ((c : Thread nD τ).loc main_arg11)) := by
  show StableHlo.after hostOps0 (W0 m ρ c) (Proc.devRef .tc main_arg11) = _
  after_results

theorem V1_wn (c : Dev nD) : RelArray.wnA (V1 m ρ) c = (m ((c : Thread nD τ).loc main_arg12)) := by
  show StableHlo.after hostOps0 (W0 m ρ c) (Proc.devRef .tc main_arg12) = _
  after_results

theorem V1_bias (c : Dev nD) : RelArray.biasA (V1 m ρ) c = shapeCast S1x8 (m ((c : Thread nD τ).loc main_arg13)) shapeCasts_S8_S1x8 := by
  show StableHlo.after hostOps0 (W0 m ρ c) (Proc.devRef .tc main_v19) = _
  after_results
  rfl

set_option maxHeartbeats 2000000 in
theorem V1_mean (c : Dev nD) : RelArray.meanA (V1 m ρ) c = meanK (m ((c : Thread nD τ).loc main_arg1)) (m ((c : Thread nD τ).loc main_arg2)) (m ((c : Thread nD τ).loc main_arg3)) := by
  show StableHlo.after hostOps0 (W0 m ρ c) (Proc.devRef .tc main_v18) = _
  after_results
  rfl

/-- The relearned table the first kernel leaves, of the program's arguments. -/
def tableK (c : Dev nD) : FVec Ideal S100000x8 .f32 :=
  Spec.relearn (m ((c : Thread nD τ).loc main_arg1)) (meanK (m ((c : Thread nD τ).loc main_arg1)) (m ((c : Thread nD τ).loc main_arg2)) (m ((c : Thread nD τ).loc main_arg3))) (m ((c : Thread nD τ).loc main_arg11)) (m ((c : Thread nD τ).loc main_arg12)) (fun j => (m ((c : Thread nD τ).loc main_arg13)) (ix1 j))

theorem table_eq (c : Dev nD) : RelArray.table (V1 m ρ) c = tableK m c := by
  unfold RelArray.table tableK
  rw [V1_node, V1_mean, V1_ws, V1_wn, V1_bias]
  simp only [RowBias.ofVec_apply]

/-! ## The second kernel's arrays -/

/-- An argument no operation before the first kernel writes is, after the first kernel, as launched. -/
theorem W2_arg4 (c : Dev nD) : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  after_results
theorem W2_arg0 (c : Dev nD) : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results
theorem W2_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results
theorem W2_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results
theorem W2_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results
theorem W2_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results
theorem W2_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results
theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

/-- The table's array after the first kernel. -/
theorem W2_table (c : Dev nD) : W2 m ρ c (Proc.devRef .tc main_v20) = tableK m c :=
  (W2_arr m ρ c 5).trans ((RelArray.final (V1 m ρ) c).trans (table_eq m ρ c))

theorem V3_bert (c : Dev nD) : MlpArray.bertA (V3 m ρ) c = (m ((c : Thread nD τ).loc main_arg0)) := by
  show StableHlo.after hostOps1 (W2 m ρ c) (Proc.devRef .tc main_arg0) = _
  after_results
  exact W2_arg0 m ρ c

theorem V3_w1 (c : Dev nD) : MlpArray.w1A (V3 m ρ) c = (m ((c : Thread nD τ).loc main_arg5)) := by
  show StableHlo.after hostOps1 (W2 m ρ c) (Proc.devRef .tc main_arg5) = _
  after_results
  exact W2_arg5 m ρ c

theorem V3_w2 (c : Dev nD) : MlpArray.w2A (V3 m ρ) c = (m ((c : Thread nD τ).loc main_arg7)) := by
  show StableHlo.after hostOps1 (W2 m ρ c) (Proc.devRef .tc main_arg7) = _
  after_results
  exact W2_arg7 m ρ c

theorem V3_w3 (c : Dev nD) : MlpArray.w3A (V3 m ρ) c = (m ((c : Thread nD τ).loc main_arg9)) := by
  show StableHlo.after hostOps1 (W2 m ρ c) (Proc.devRef .tc main_arg9) = _
  after_results
  exact W2_arg9 m ρ c

theorem V3_b1 (c : Dev nD) : MlpArray.b1A (V3 m ρ) c = shapeCast S1x128 (m ((c : Thread nD τ).loc main_arg6)) shapeCasts_S128_S1x128 := by
  show StableHlo.after hostOps1 (W2 m ρ c) (Proc.devRef .tc main_v39) = _
  after_results
  rw [W2_arg6]
  rfl

theorem V3_b2 (c : Dev nD) : MlpArray.b2A (V3 m ρ) c = shapeCast S1x16 (m ((c : Thread nD τ).loc main_arg8)) shapeCasts_S16_S1x16 := by
  show StableHlo.after hostOps1 (W2 m ρ c) (Proc.devRef .tc main_v40) = _
  after_results
  rw [W2_arg8]
  rfl

theorem V3_b3 (c : Dev nD) : MlpArray.b3A (V3 m ρ) c = shapeCast S1x3 (m ((c : Thread nD τ).loc main_arg10)) shapeCasts_S3_S1x3 := by
  show StableHlo.after hostOps1 (W2 m ρ c) (Proc.devRef .tc main_v41) = _
  after_results
  rw [W2_arg10]
  rfl

set_option maxHeartbeats 2000000 in
theorem V3_head (c : Dev nD) : MlpArray.headA (V3 m ρ) c
    = Host.gather gather_S100000x8_S32768x1_S32768x8_1_0_n_n_0_1_18 (tableK m c) (rowIdx0 (m ((c : Thread nD τ).loc main_arg4))) := by
  show StableHlo.after hostOps1 (W2 m ρ c) (Proc.devRef .tc main_v29) = _
  after_results
  rw [W2_table, W2_arg4]
  rfl

set_option maxHeartbeats 2000000 in
theorem V3_tail (c : Dev nD) : MlpArray.tailA (V3 m ρ) c
    = Host.gather gather_S100000x8_S32768x1_S32768x8_1_0_n_n_0_1_18 (tableK m c) (rowIdx1 (m ((c : Thread nD τ).loc main_arg4))) := by
  show StableHlo.after hostOps1 (W2 m ρ c) (Proc.devRef .tc main_v38) = _
  after_results
  rw [W2_table, W2_arg4]
  rfl

/-- The program's result array after the run, of the program's arguments. -/
def resultK (c : Dev nD) : FVec Ideal S32768x3 .f32 :=
  Spec.mlp (m ((c : Thread nD τ).loc main_arg0))
    (Host.gather gather_S100000x8_S32768x1_S32768x8_1_0_n_n_0_1_18 (tableK m c) (rowIdx0 (m ((c : Thread nD τ).loc main_arg4))))
    (Host.gather gather_S100000x8_S32768x1_S32768x8_1_0_n_n_0_1_18 (tableK m c) (rowIdx1 (m ((c : Thread nD τ).loc main_arg4))))
    (m ((c : Thread nD τ).loc main_arg5)) (fun j => (m ((c : Thread nD τ).loc main_arg6)) (ix1 j)) (m ((c : Thread nD τ).loc main_arg7)) (fun j => (m ((c : Thread nD τ).loc main_arg8)) (ix1 j)) (m ((c : Thread nD τ).loc main_arg9)) (fun j => (m ((c : Thread nD τ).loc main_arg10)) (ix1 j))

theorem result_eq (c : Dev nD) : (dat1 (V3 m ρ) c).arrAt 9 cfg1.N = resultK m c := by
  rw [MlpArray.final]
  unfold MlpArray.result resultK
  rw [V3_bert, V3_head, V3_tail, V3_w1, V3_b1, V3_w2, V3_b2, V3_w3, V3_b3]
  simp only [RowBias.ofVec_apply]

end Cert.KernelIdeal.HostRead

end
-- ==== Proof.RefValue.lean ====
/-
  The reference's result is the same classifier of the same relearned table.

  The reference computes the relearned table by two host products and a bias on the whole [100000, 8] arrays, gathers
  the head and tail rows from it, and runs the classifier by three host products on the whole batch. Read entry by
  entry these are the row functions `relRow` and `outRow`: a host product against a transposed stored matrix is the
  sum over the stored matrix's second coordinate, the 144-wide row is the three column blocks side by side, and the
  clamp is the maximum with the zero word. The neighbourhood mean and the two gathers are kept as the operations they are.
-/
import proofs.«169725_j90993177133266_1_alg».proof.Proof.Gen.ReferenceIdeal.Read
import proofs.«169725_j90993177133266_1_alg».proof.Proof.Spec
import proofs.«169725_j90993177133266_1_alg».proof.Proof.LibPlainDot
import proofs.«169725_j90993177133266_1_alg».proof.Proof.LibRowBias
import proofs.«169725_j90993177133266_1_alg».proof.Proof.LibConcatCols
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The zero the reference clamps at, read at an index. -/
theorem zero_apply {s : Shape} (h : S_.BroadcastsInDim s ![]) (i : s.Idx) :
    broadcastInDim s ![] h (constant (F := Ideal) S_ .f32 0x00000000#32) i = Spec.zeroW :=
  RowBias.splat_apply _ h i

/-- The relearned table, entry by entry. -/
theorem table_eq (x1 : FVec Ideal S100000x8 .f32) (x2 x3 : IVec S3200000 32) (x11 x12 : FVec Ideal S8x8 .f32) (x13 : FVec Ideal S8 .f32) :
    val_main_v26 (F := Ideal) x1 x2 x3 x11 x12 x13
      = Spec.relearn x1 (val_main_v18 (F := Ideal) x1 x2 x3) x11 x12 (fun j => x13 (ix1 j)) := by
  have e : val_main_v26 (F := Ideal) x1 x2 x3 x11 x12 x13
      = addf (addf (Host.dotGeneral dot_S100000x8_S8x8_S100000x8_1_0_0_1_n_n none x1 (transpose S8x8 [1, 0] x11 transposes_S8x8_S8x8_1_0))
            (Host.dotGeneral dot_S100000x8_S8x8_S100000x8_1_0_0_1_n_n none (val_main_v18 (F := Ideal) x1 x2 x3) (transpose S8x8 [1, 0] x12 transposes_S8x8_S8x8_1_0)))
          (broadcastInDim S100000x8 ![0, 1] bcast_S1x8_S100000x8_0_1 (broadcastInDim S1x8 ![1] bcast_S8_S1x8_1 x13)) := rfl
  rw [e]
  generalize val_main_v18 (F := Ideal) x1 x2 x3 = hn
  funext i
  obtain ⟨p, q, rfl⟩ : ∃ (p : Fin 100000) (q : Fin 8), i = ix2 p q := ⟨i 0, i 1, eq_ix2 i⟩
  rw [Spec.relearn_ix2]
  unfold Spec.relRow
  rw [addf_apply, addf_apply]
  refine congrArg₂ (· + ·) (congrArg₂ (· + ·) ?_ ?_) ?_
  · exact PlainDot.dotGeneral_transposed_apply (M := 100000) (K := 8) (N := 8) none _ x1 x11 transposes_S8x8_S8x8_1_0 p q
  · exact PlainDot.dotGeneral_transposed_apply (M := 100000) (K := 8) (N := 8) none _ hn x12 transposes_S8x8_S8x8_1_0 p q
  · exact RowBias.hostRows_apply (M := 100000) (n := 8) x13 bcast_S8_S1x8_1 bcast_S1x8_S100000x8_0_1 p q

/-- The first hidden layer, entry by entry. -/
theorem hid1_apply (x0 : FVec Ideal S32768x768 .f32) (x5 : FVec Ideal S128x768 .f32) (x6 : FVec Ideal S128 .f32) (p : Fin 32768) (j : Fin 128) :
    val_main_v32 (F := Ideal) x0 x5 x6 (ix2 p j) = Spec.hid1 (fun k => x0 (ix2 p k)) x5 (fun j => x6 (ix1 j)) j := by
  have e : val_main_v32 (F := Ideal) x0 x5 x6
      = maximumf (addf (Host.dotGeneral dot_S32768x768_S768x128_S32768x128_1_0_0_1_n_n none x0 (transpose S768x128 [1, 0] x5 transposes_S128x768_S768x128_1_0))
            (broadcastInDim S32768x128 ![0, 1] bcast_S1x128_S32768x128_0_1 (broadcastInDim S1x128 ![1] bcast_S128_S1x128_1 x6)))
          (broadcastInDim S32768x128 ![] bcast_S_S32768x128 (constant S_ .f32 0x00000000#32)) := rfl
  rw [e]
  unfold Spec.hid1
  rw [maximumf_apply, addf_apply]
  refine congrArg₂ max (congrArg₂ (· + ·) ?_ ?_) ?_
  · exact PlainDot.dotGeneral_transposed_apply (M := 32768) (K := 768) (N := 128) none _ x0 x5 transposes_S128x768_S768x128_1_0 p j
  · exact RowBias.hostRows_apply (M := 32768) (n := 128) x6 bcast_S128_S1x128_1 bcast_S1x128_S32768x128_0_1 p j
  · exact zero_apply bcast_S_S32768x128 (ix2 p j)

/-- The 144-wide rows the second layer reads, for ANY head and tail arrays laid beside the hidden layer. -/
theorem cat_apply (x0 : FVec Ideal S32768x768 .f32) (x5 : FVec Ideal S128x768 .f32) (x6 : FVec Ideal S128 .f32)
    (hd tl : FVec Ideal S32768x8 .f32) (p : Fin 32768) (k : Fin 144) :
    concatenate S32768x144 1 [⟨S32768x128, val_main_v32 (F := Ideal) x0 x5 x6⟩, ⟨S32768x8, hd⟩, ⟨S32768x8, tl⟩]
        concatenates_S32768x128_S32768x8_S32768x8_S32768x144_d1 (ix2 p k)
      = Spec.cat (fun k => x0 (ix2 p k)) (fun k => hd (ix2 p k)) (fun k => tl (ix2 p k)) x5 (fun j => x6 (ix1 j)) k := by
  unfold Spec.cat
  refine (ConcatCols.concat3_apply (M := 32768) (val_main_v32 (F := Ideal) x0 x5 x6) hd tl concatenates_S32768x128_S32768x8_S32768x8_S32768x144_d1 p k).trans ?_
  by_cases c1 : k.val < 128
  · rw [dif_pos c1, dif_pos c1]; exact hid1_apply x0 x5 x6 p ⟨k.val, c1⟩
  · rw [dif_neg c1, dif_neg c1]

/-- The classifier above the gathers: for ANY head and tail arrays. -/
def top (x0 : FVec Ideal S32768x768 .f32) (x5 : FVec Ideal S128x768 .f32) (x6 : FVec Ideal S128 .f32) (hd tl : FVec Ideal S32768x8 .f32)
    (x7 : FVec Ideal S16x144 .f32) (x8 : FVec Ideal S16 .f32) (x9 : FVec Ideal S3x16 .f32) (x10 : FVec Ideal S3 .f32) : FVec Ideal S32768x3 .f32 :=
  addf (Host.dotGeneral dot_S32768x16_S16x3_S32768x3_1_0_0_1_n_n none
      (maximumf (addf (Host.dotGeneral dot_S32768x144_S144x16_S32768x16_1_0_0_1_n_n none
            (concatenate S32768x144 1 [⟨S32768x128, val_main_v32 (F := Ideal) x0 x5 x6⟩, ⟨S32768x8, hd⟩, ⟨S32768x8, tl⟩]
              concatenates_S32768x128_S32768x8_S32768x8_S32768x144_d1)
            (transpose S144x16 [1, 0] x7 transposes_S16x144_S144x16_1_0))
          (broadcastInDim S32768x16 ![0, 1] bcast_S1x16_S32768x16_0_1 (broadcastInDim S1x16 ![1] bcast_S16_S1x16_1 x8)))
        (broadcastInDim S32768x16 ![] bcast_S_S32768x16 (constant S_ .f32 0x00000000#32)))
      (transpose S16x3 [1, 0] x9 transposes_S3x16_S16x3_1_0))
    (broadcastInDim S32768x3 ![0, 1] bcast_S1x3_S32768x3_0_1 (broadcastInDim S1x3 ![1] bcast_S3_S1x3_1 x10))

theorem top_eq (x0 : FVec Ideal S32768x768 .f32) (x5 : FVec Ideal S128x768 .f32) (x6 : FVec Ideal S128 .f32) (hd tl : FVec Ideal S32768x8 .f32)
    (x7 : FVec Ideal S16x144 .f32) (x8 : FVec Ideal S16 .f32) (x9 : FVec Ideal S3x16 .f32) (x10 : FVec Ideal S3 .f32) :
    top x0 x5 x6 hd tl x7 x8 x9 x10
      = Spec.mlp x0 hd tl x5 (fun j => x6 (ix1 j)) x7 (fun j => x8 (ix1 j)) x9 (fun j => x10 (ix1 j)) := by
  funext i
  obtain ⟨p, q, rfl⟩ : ∃ (p : Fin 32768) (q : Fin 3), i = ix2 p q := ⟨i 0, i 1, eq_ix2 i⟩
  rw [Spec.mlp_ix2]
  unfold top Spec.outRow
  rw [addf_apply]
  refine congrArg₂ (· + ·) ?_ ?_
  · refine (PlainDot.dotGeneral_transposed_apply (M := 32768) (K := 16) (N := 3) none _ _ x9 transposes_S3x16_S16x3_1_0 p q).trans ?_
    refine Finset.sum_congr rfl fun k _ => congrArg (· * x9 (ix2 q k)) ?_
    unfold Spec.hid2
    rw [maximumf_apply, addf_apply]
    refine congrArg₂ max (congrArg₂ (· + ·) ?_ ?_) ?_
    · refine (PlainDot.dotGeneral_transposed_apply (M := 32768) (K := 144) (N := 16) none _ _ x7 transposes_S16x144_S144x16_1_0 p k).trans ?_
      exact Finset.sum_congr rfl fun k' _ => congrArg (· * x7 (ix2 k k')) (cat_apply x0 x5 x6 hd tl p k')
    · exact RowBias.hostRows_apply (M := 32768) (n := 16) x8 bcast_S16_S1x16_1 bcast_S1x16_S32768x16_0_1 p k
    · exact zero_apply bcast_S_S32768x16 (ix2 p k)
  · exact RowBias.hostRows_apply (M := 32768) (n := 3) x10 bcast_S3_S1x3_1 bcast_S1x3_S32768x3_0_1 p q

/-- The reference's result: the classifier of the text features and of the rows gathered from the relearned table. -/
theorem result_eq (x0 : FVec Ideal S32768x768 .f32) (x1 : FVec Ideal S100000x8 .f32) (x2 x3 : IVec S3200000 32) (x4 : IVec S2x32768 32)
    (x5 : FVec Ideal S128x768 .f32) (x6 : FVec Ideal S128 .f32) (x7 : FVec Ideal S16x144 .f32) (x8 : FVec Ideal S16 .f32)
    (x9 : FVec Ideal S3x16 .f32) (x10 : FVec Ideal S3 .f32) (x11 x12 : FVec Ideal S8x8 .f32) (x13 : FVec Ideal S8 .f32) :
    val_main_v62 (F := Ideal) x0 x1 x2 x3 x4 x5 x6 x7 x8 x9 x10 x11 x12 x13
      = Spec.mlp x0
          (Host.gather gather_S100000x8_S32768x1_S32768x8_1_0_n_n_0_1_18
            (Spec.relearn x1 (val_main_v18 (F := Ideal) x1 x2 x3) x11 x12 (fun j => x13 (ix1 j))) (val_main_v40 (F := Ideal) x4))
          (Host.gather gather_S100000x8_S32768x1_S32768x8_1_0_n_n_0_1_18
            (Spec.relearn x1 (val_main_v18 (F := Ideal) x1 x2 x3) x11 x12 (fun j => x13 (ix1 j))) (val_main_v49 (F := Ideal) x4))
          x5 (fun j => x6 (ix1 j)) x7 (fun j => x8 (ix1 j)) x9 (fun j => x10 (ix1 j)) := by
  have e : val_main_v62 (F := Ideal) x0 x1 x2 x3 x4 x5 x6 x7 x8 x9 x10 x11 x12 x13
      = top x0 x5 x6
          (Host.gather gather_S100000x8_S32768x1_S32768x8_1_0_n_n_0_1_18 (val_main_v26 (F := Ideal) x1 x2 x3 x11 x12 x13) (val_main_v40 (F := Ideal) x4))
          (Host.gather gather_S100000x8_S32768x1_S32768x8_1_0_n_n_0_1_18 (val_main_v26 (F := Ideal) x1 x2 x3 x11 x12 x13) (val_main_v49 (F := Ideal) x4))
          x7 x8 x9 x10 := rfl
  rw [e, table_eq, top_eq]

end Cert.ReferenceIdeal.RefValue

end
-- ==== Proof.Bridge.lean ====
/-
  The host operations the two programs share are the same operations.

  Both programs compute the neighbourhood mean and the two rows of gather indices by the same chain of host operations
  on the same arguments; only the names under which each program states its shapes and dimension numbers differ.
  Unfolding the reference's stages one by one leaves the kernel program's term.
-/
import proofs.«169725_j90993177133266_1_alg».proof.Proof.Gen.ReferenceIdeal.Read
import proofs.«169725_j90993177133266_1_alg».proof.Proof.KHost

set_option maxRecDepth 16384

noncomputable section

namespace Cert.Proof.Bridge

open Idealize.ShloMosaic

/-- The neighbourhood mean: the reference's stage is the kernel program's term. -/
theorem mean_eq (x1 : FVec Ideal Cert.KernelIdeal.S100000x8 .f32) (x2 x3 : IVec Cert.KernelIdeal.S3200000 32) :
    Cert.KernelIdeal.HostRead.meanK x1 x2 x3 = Cert.ReferenceIdeal.Read.val_main_v18 (F := Ideal) x1 x2 x3 := by
  unfold Cert.KernelIdeal.HostRead.meanK
  unfold Cert.ReferenceIdeal.Read.val_main_v18 Cert.ReferenceIdeal.Read.val_main_v17 Cert.ReferenceIdeal.Read.val_main_v16 Cert.ReferenceIdeal.Read.val_main_v15
    Cert.ReferenceIdeal.Read.val_main_v14 Cert.ReferenceIdeal.Read.val_main_cst_3 Cert.ReferenceIdeal.Read.val_main_v13 Cert.ReferenceIdeal.Read.val_main_v12
    Cert.ReferenceIdeal.Read.val_main_v11 Cert.ReferenceIdeal.Read.val_main_cst_2 Cert.ReferenceIdeal.Read.val_main_v10 Cert.ReferenceIdeal.Read.val_main_cst_1
    Cert.ReferenceIdeal.Read.val_main_v9 Cert.ReferenceIdeal.Read.val_main_v8 Cert.ReferenceIdeal.Read.val_main_v7 Cert.ReferenceIdeal.Read.val_main_cst
    Cert.ReferenceIdeal.Read.val_main_v6 Cert.ReferenceIdeal.Read.val_main_v5 Cert.ReferenceIdeal.Read.val_main_v4 Cert.ReferenceIdeal.Read.val_main_v3
    Cert.ReferenceIdeal.Read.val_main_v2 Cert.ReferenceIdeal.Read.val_main_c_0 Cert.ReferenceIdeal.Read.val_main_v1 Cert.ReferenceIdeal.Read.val_main_v0
    Cert.ReferenceIdeal.Read.val_main_c
  rfl

/-- The head nodes' gather indices. -/
theorem rowIdx0_eq (x4 : IVec Cert.KernelIdeal.S2x32768 32) :
    Cert.KernelIdeal.HostRead.rowIdx0 x4 = Cert.ReferenceIdeal.Read.val_main_v40 (F := Ideal) x4 := by
  unfold Cert.KernelIdeal.HostRead.rowIdx0
  unfold Cert.ReferenceIdeal.Read.val_main_v40 Cert.ReferenceIdeal.Read.val_main_v39 Cert.ReferenceIdeal.Read.val_main_v38 Cert.ReferenceIdeal.Read.val_main_v37 Cert.ReferenceIdeal.Read.val_main_c_5
    Cert.ReferenceIdeal.Read.val_main_v36 Cert.ReferenceIdeal.Read.val_main_v35 Cert.ReferenceIdeal.Read.val_main_c_4 Cert.ReferenceIdeal.Read.val_main_v34 Cert.ReferenceIdeal.Read.val_main_v33
  rfl

/-- The tail nodes' gather indices. -/
theorem rowIdx1_eq (x4 : IVec Cert.KernelIdeal.S2x32768 32) :
    Cert.KernelIdeal.HostRead.rowIdx1 x4 = Cert.ReferenceIdeal.Read.val_main_v49 (F := Ideal) x4 := by
  unfold Cert.KernelIdeal.HostRead.rowIdx1
  unfold Cert.ReferenceIdeal.Read.val_main_v49 Cert.ReferenceIdeal.Read.val_main_v48 Cert.ReferenceIdeal.Read.val_main_v47 Cert.ReferenceIdeal.Read.val_main_v46 Cert.ReferenceIdeal.Read.val_main_c_7
    Cert.ReferenceIdeal.Read.val_main_v45 Cert.ReferenceIdeal.Read.val_main_v44 Cert.ReferenceIdeal.Read.val_main_c_6 Cert.ReferenceIdeal.Read.val_main_v43 Cert.ReferenceIdeal.Read.val_main_v42
  rfl

/-- The row gather's dimension numbers. -/
theorem gather_eq : Cert.KernelIdeal.gather_S100000x8_S32768x1_S32768x8_1_0_n_n_0_1_18
    = Cert.ReferenceIdeal.gather_S100000x8_S32768x1_S32768x8_1_0_n_n_0_1_18 := rfl

end Cert.Proof.Bridge

end
-- ==== Proof.lean ====
/-
  A graph-convolution relearning of node features feeding a three-layer classifier, as two tiled kernels, against the
  same computation written with whole-array host products.

  Both programs first form, by the same host operations, the mean of each node's in-neighbours' feature rows. The
  kernel program then computes the relearned table `node·Wsᵀ + mean·Wnᵀ + bias` in ten row blocks, gathers the head and
  tail rows of each batch element on the host, and runs the classifier `relu(relu([relu(x·W1ᵀ + b1), head, tail]·W2ᵀ + b2))·W3ᵀ + b3`
  in sixteen row blocks; the reference does the same with whole-array products. On the extended reals a product
  against a transposed stored matrix is, entry by entry, a sum over the stored matrix's second coordinate, whichever
  unit forms it and whatever the tiling, and narrowing to bf16 is the identity: both results are `Spec.mlp` of the
  arguments and of the rows gathered from `Spec.relearn`. No law of the extended reals beyond that is used, so the
  precondition (finite inputs) is never opened. The idealized kernel program is the kernel program's own text read on the
  extended reals, so the idealization claim is empty.
-/
import proofs.«169725_j90993177133266_1_alg».proof.Defs
import proofs.«169725_j90993177133266_1_alg».proof.Proof.Gen.Kernel
import proofs.«169725_j90993177133266_1_alg».proof.Proof.Gen.Kernel.Skeleton
import proofs.«169725_j90993177133266_1_alg».proof.Proof.Gen.Kernel.Launch
import proofs.«169725_j90993177133266_1_alg».proof.Proof.Gen.Kernel.Points
import proofs.«169725_j90993177133266_1_alg».proof.Proof.Gen.Kernel.Frame
import proofs.«169725_j90993177133266_1_alg».proof.Proof.Gen.KernelIdeal
import proofs.«169725_j90993177133266_1_alg».proof.Proof.Gen.KernelIdeal.Skeleton
import proofs.«169725_j90993177133266_1_alg».proof.Proof.Gen.KernelIdeal.Launch
import proofs.«169725_j90993177133266_1_alg».proof.Proof.Gen.KernelIdeal.Points
import proofs.«169725_j90993177133266_1_alg».proof.Proof.Gen.KernelIdeal.Frame
import proofs.«169725_j90993177133266_1_alg».proof.Proof.Gen.ReferenceIdeal
import proofs.«169725_j90993177133266_1_alg».proof.Proof.Gen.Pre_finite_inputs
import proofs.«169725_j90993177133266_1_alg».proof.Proof.Gen.ReferenceIdeal.Run
import proofs.«169725_j90993177133266_1_alg».proof.Proof.Gen.ReferenceIdeal.Read
import proofs.«169725_j90993177133266_1_alg».proof.Proof.KRun
import proofs.«169725_j90993177133266_1_alg».proof.Proof.KHost
import proofs.«169725_j90993177133266_1_alg».proof.Proof.RefValue
import proofs.«169725_j90993177133266_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel program's result, written with the reference's names for the shared host operations, is the term the
    reference's result reads as. -/
theorem results_agree (x0 : FVec Ideal Cert.ReferenceIdeal.S32768x768 .f32) (x1 : FVec Ideal Cert.ReferenceIdeal.S100000x8 .f32) (x2 x3 : IVec Cert.ReferenceIdeal.S3200000 32)
    (x4 : IVec Cert.ReferenceIdeal.S2x32768 32) (x5 : FVec Ideal Cert.ReferenceIdeal.S128x768 .f32) (x6 : FVec Ideal Cert.ReferenceIdeal.S128 .f32) (x7 : FVec Ideal Cert.ReferenceIdeal.S16x144 .f32)
    (x8 : FVec Ideal Cert.ReferenceIdeal.S16 .f32) (x9 : FVec Ideal Cert.ReferenceIdeal.S3x16 .f32) (x10 : FVec Ideal Cert.ReferenceIdeal.S3 .f32) (x11 x12 : FVec Ideal Cert.ReferenceIdeal.S8x8 .f32)
    (x13 : FVec Ideal Cert.ReferenceIdeal.S8 .f32) :
    Cert.ReferenceIdeal.Read.val_main_v62 (F := Ideal) x0 x1 x2 x3 x4 x5 x6 x7 x8 x9 x10 x11 x12 x13
      = Spec.mlp x0
          (Host.gather Cert.KernelIdeal.gather_S100000x8_S32768x1_S32768x8_1_0_n_n_0_1_18
            (Spec.relearn x1 (Cert.KernelIdeal.HostRead.meanK x1 x2 x3) x11 x12 (fun j => x13 (ValueIdx.ix1 j))) (Cert.KernelIdeal.HostRead.rowIdx0 x4))
          (Host.gather Cert.KernelIdeal.gather_S100000x8_S32768x1_S32768x8_1_0_n_n_0_1_18
            (Spec.relearn x1 (Cert.KernelIdeal.HostRead.meanK x1 x2 x3) x11 x12 (fun j => x13 (ValueIdx.ix1 j))) (Cert.KernelIdeal.HostRead.rowIdx1 x4))
          x5 (fun j => x6 (ValueIdx.ix1 j)) x7 (fun j => x8 (ValueIdx.ix1 j)) x9 (fun j => x10 (ValueIdx.ix1 j)) := by
  rw [Cert.ReferenceIdeal.RefValue.result_eq, Bridge.mean_eq, Bridge.rowIdx0_eq, Bridge.rowIdx1_eq, Bridge.gather_eq]

/-- Both programs end with the classifier's outputs `resultK` of the arguments. -/
theorem algebraic : Cert.algebraic_KernelIdeal_ReferenceIdeal := by
  intro m ρ m' ρ' _ hagree
  refine ⟨fun c => Cert.KernelIdeal.HostRead.resultK m c, ?_, ?_⟩
  · exact (θ_run Cert.KernelIdeal.defs _ _).mono
      (fun r h c => ⟨(h c).1.trans (Cert.KernelIdeal.HostRead.result_eq m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13⟩ := hagree c
    rw [Cert.ReferenceIdeal.Read.val_main_v62_eq, a0, a1, a2, a3, a4, a5, a6, a7, a8, a9, a10, a11, a12, a13]
    exact results_agree _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
